-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x199x64 : Shape := ⟨3, ![4096, 199, 64]⟩
abbrev S4096x64 : Shape := ⟨2, ![4096, 64]⟩
abbrev S64x64 : Shape := ⟨2, ![64, 64]⟩
abbrev S64 : Shape := ⟨1, ![64]⟩
abbrev S200x64 : Shape := ⟨2, ![200, 64]⟩
abbrev S_ : Shape := ⟨0, ![]⟩

class Facts : Prop where
  bcast_S_S4096x199x64 : S_.BroadcastsInDim S4096x199x64 (![] : Fin 0 → Fin S4096x199x64.rank)
  reducesTo_S4096x199x64_S_d0_1_2 : S4096x199x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S200x64 : S_.BroadcastsInDim S200x64 (![] : Fin 0 → Fin S200x64.rank)
  reducesTo_S200x64_S_d0_1 : S200x64.ReducesTo [0, 1] S_

variable [Facts]

def fn_part1 {F : FTy → Type} [FloatOps F] (main_arg4 : FVec F S200x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S200x64 .f32 := Host.absf main_arg4
  let main_cst_6 : FVec F S_ .f32 := constant S_ .f32 0x7F800000#32
  let main_v20 : FVec F S200x64 .f32 := broadcastInDim S200x64 ![] bcast_S_S200x64 main_cst_6
  let main_v21 : IVec S200x64 1 := cmpf .olt main_v19 main_v20
  let main_c_7 : IVec S_ 1 := constantI S_ 1 1#1
  let main_v22 : IVec S_ 1 := (fun x v => Host.reduce IntOp.andi x v reducesTo_S200x64_S_d0_1 h_S_) main_v21 main_c_7
  let main_v23 : IVec S_ 1 := andi main_v18 main_v22
  main_v23

def fn {F : FTy → Type} [FloatOps F] (main_arg0 : FVec F S4096x199x64 .f32) (main_arg1 : FVec F S4096x64 .f32) (main_arg2 : FVec F S64x64 .f32) (main_arg3 : FVec F S64 .f32) (main_arg4 : FVec F S200x64 .f32) : IVec S_ 1 :=
  let main_v0 : FVec F S4096x199x64 .f32 := Host.absf main_arg0
  let main_cst : FVec F S_ .f32 := constant S_ .f32 0x7F800000#32
  let main_v1 : FVec F S4096x199x64 .f32 := broadcastInDim S4096x199x64 ![] bcast_S_S4096x199x64 main_cst
  let main_v2 : IVec S4096x199x64 1 := cmpf .olt main_v0 main_v1
  let main_c : IVec S_ 1 := constantI S_ 1 1#1
  let main_v3 : IVec S_ 1 := (fun x v => Host.reduce IntOp.andi x v reducesTo_S4096x199x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S4096x199x64 : Shape := ⟨3, ![4096, 199, 64]⟩
abbrev S4096x64 : Shape := ⟨2, ![4096, 64]⟩
abbrev S64x64 : Shape := ⟨2, ![64, 64]⟩
abbrev S64 : Shape := ⟨1, ![64]⟩
abbrev S200x64 : Shape := ⟨2, ![200, 64]⟩
abbrev S199x64x4096 : Shape := ⟨3, ![199, 64, 4096]⟩
abbrev S64x4096 : Shape := ⟨2, ![64, 4096]⟩
abbrev S199x64 : Shape := ⟨2, ![199, 64]⟩
abbrev S199x64x1 : Shape := ⟨3, ![199, 64, 1]⟩
abbrev S1x64 : Shape := ⟨2, ![1, 64]⟩
abbrev S64x1 : Shape := ⟨2, ![64, 1]⟩
abbrev S64x4x16 : Shape := ⟨3, ![64, 4, 16]⟩
abbrev S4x64x16 : Shape := ⟨3, ![4, 64, 16]⟩
abbrev S200x64x4096 : Shape := ⟨3, ![200, 64, 4096]⟩
abbrev S199x16x512 : Shape := ⟨3, ![199, 16, 512]⟩
abbrev S64x512 : Shape := ⟨2, ![64, 512]⟩
abbrev S1x64x16 : Shape := ⟨3, ![1, 64, 16]⟩
abbrev S16x1 : Shape := ⟨2, ![16, 1]⟩
abbrev S199x16x1 : Shape := ⟨3, ![199, 16, 1]⟩
abbrev S200x16x512 : Shape := ⟨3, ![200, 16, 512]⟩
abbrev S64x16 : Shape := ⟨2, ![64, 16]⟩
abbrev S16x512 : Shape := ⟨2, ![16, 512]⟩
abbrev S1x16x512 : Shape := ⟨3, ![1, 16, 512]⟩
abbrev S4096x200x64 : Shape := ⟨3, ![4096, 200, 64]⟩

abbrev nBuf : Space → Nat
  | .hbm => 17
  | .vmem => 12
  | .smem => 0
  | _ => 0

abbrev bufTy : (tb : Table) → Fin (tcTables nBuf tb) → BufTy
  | .hbm, ⟨0, _⟩ => ⟨S4096x199x64, .f32⟩
  | .hbm, ⟨1, _⟩ => ⟨S4096x64, .f32⟩
  | .hbm, ⟨2, _⟩ => ⟨S64x64, .f32⟩
  | .hbm, ⟨3, _⟩ => ⟨S64, .f32⟩
  | .hbm, ⟨4, _⟩ => ⟨S200x64, .f32⟩
  | .hbm, ⟨5, _⟩ => ⟨S199x64x4096, .f32⟩
  | .hbm, ⟨6, _⟩ => ⟨S64x4096, .f32⟩
  | .hbm, ⟨7, _⟩ => ⟨S199x64, .f32⟩
  | .hbm, ⟨8, _⟩ => ⟨S199x64x1, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x4x16, .f32⟩
  | .hbm, ⟨14, _⟩ => ⟨S4x64x16, .f32⟩
  | .hbm, ⟨15, _⟩ => ⟨S200x64x4096, .f32⟩
  | .hbm, ⟨16, _⟩ => ⟨S4096x200x64, .f32⟩
  | .local _ .vmem, ⟨0, _⟩ => ⟨S199x16x512, .f32⟩
  | .local _ .vmem, ⟨1, _⟩ => ⟨S199x16x512, .f32⟩
  | .local _ .vmem, ⟨2, _⟩ => ⟨S64x512, .f32⟩
  | .local _ .vmem, ⟨3, _⟩ => ⟨S64x512, .f32⟩
  | .local _ .vmem, ⟨4, _⟩ => ⟨S1x64x16, .f32⟩
  | .local _ .vmem, ⟨5, _⟩ => ⟨S1x64x16, .f32⟩
  | .local _ .vmem, ⟨6, _⟩ => ⟨S16x1, .f32⟩
  | .local _ .vmem, ⟨7, _⟩ => ⟨S16x1, .f32⟩
  | .local _ .vmem, ⟨8, _⟩ => ⟨S199x16x1, .f32⟩
  | .local _ .vmem, ⟨9, _⟩ => ⟨S199x16x1, .f32⟩
  | .local _ .vmem, ⟨10, _⟩ => ⟨S200x16x512, .f32⟩
  | .local _ .vmem, ⟨11, _⟩ => ⟨S200x16x512, .f32⟩
  | _, _ => ⟨S4096x199x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S199x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S199x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S200x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S4096x199x64_S199x64x4096_1_2_0 : S4096x199x64.Transposes [1, 2, 0] S199x64x4096
  transposes_S4096x64_S64x4096_1_0 : S4096x64.Transposes [1, 0] S64x4096
  slices_S200x64_S199x64_1_0 : S200x64.Slices ![1, 0] S199x64
  shapeCasts_S199x64_S199x64x1 : S199x64.ShapeCasts S199x64x1
  slices_S200x64_S1x64_0_0 : S200x64.Slices ![0, 0] S1x64
  shapeCasts_S1x64_S64 : S1x64.ShapeCasts S64
  shapeCasts_S64_S64x1 : S64.ShapeCasts S64x1
  shapeCasts_S64x64_S64x4x16 : S64x64.ShapeCasts S64x4x16
  transposes_S64x4x16_S4x64x16_1_0_2 : S64x4x16.Transposes [1, 0, 2] S4x64x16
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x512 : S16x1.Broadcasts S16x512
  inb_S200x16x512_S1x16x512_0_0_0 : ∀ a, (![0, 0, 0] : Fin 3 → Nat) a + S1x16x512.size a ≤ S200x16x512.size a
  h_S1x16x512 : 0 < S1x16x512.numel
  shapeCasts_S1x16x512_S16x512 : S1x16x512.ShapeCasts S16x512
  shapeCasts_S16x512_S1x16x512 : S16x512.ShapeCasts S1x16x512
  inb_S199x16x512_S199x16x512_0_0_0 : ∀ a, (![0, 0, 0] : Fin 3 → Nat) a + S199x16x512.size a ≤ S199x16x512.size a
  h_S199x16x512 : 0 < S199x16x512.numel
  shapeCasts_S199x16x512_S199x16x512 : S199x16x512.ShapeCasts S199x16x512
  inb_S199x16x1_S199x16x1_0_0_0 : ∀ a, (![0, 0, 0] : Fin 3 → Nat) a + S199x16x1.size a ≤ S199x16x1.size a
  h_S199x16x1 : 0 < S199x16x1.numel
  shapeCasts_S199x16x1_S199x16x1 : S199x16x1.ShapeCasts S199x16x1
  broadcasts_S199x16x1_S199x16x512 : S199x16x1.Broadcasts S199x16x512
  inb_S200x16x512_S199x16x512_1_0_0 : ∀ a, (![1, 0, 0] : Fin 3 → Nat) a + S199x16x512.size a ≤ S200x16x512.size a
  transposes_S200x64x4096_S4096x200x64_2_0_1 : S200x64x4096.Transposes [2, 0, 1] S4096x200x64
  dot_S64x16_S64x512_S16x512_0_0_1_1_n_n_wf : DotDims.WF S64x16 S64x512 S16x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S199x16x512.size a ≤ S199x64x4096.size a
  hwx0_0 : ∀ i : grid0.Coords, EltTy.bits .f32 = 32 ∨ (Rect.block (s := S199x64x4096) S199x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x4096.size a
  hwx0_1 : ∀ i : grid0.Coords, EltTy.bits .f32 = 32 ∨ (Rect.block (s := S64x4096) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x16.size a ≤ S4x64x16.size a
  hwx0_2 : ∀ i : grid0.Coords, EltTy.bits .f32 = 32 ∨ (Rect.block (s := S4x64x16) S1x64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S64x1.size a
  hwx0_3 : ∀ i : grid0.Coords, EltTy.bits .f32 = 32 ∨ (Rect.block (s := S64x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S199x16x1.size a ≤ S199x64x1.size a
  hwx0_4 : ∀ i : grid0.Coords, EltTy.bits .f32 = 32 ∨ (Rect.block (s := S199x64x1) S199x16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x16x512.size a ≤ S200x64x4096.size a
  hwx0_5 : ∀ i : grid0.Coords, EltTy.bits .f32 = 32 ∨ (Rect.block (s := S200x64x4096) S200x16x512.size (cc0_transform_5 i) (hinb0_5 i)).WholeWords (EltTy.packing .f32)

variable [Facts₀]

def dot_S64x16_S64x512_S16x512_0_0_1_1_n_n : DotDims S64x16 S64x512 S16x512 where
  lhsContracting := [0]
  rhsContracting := [0]
  lhsNonContracting := [1]
  rhsNonContracting := [1]
  lhsBatch := []
  rhsBatch := []
  wf := dot_S64x16_S64x512_S16x512_0_0_1_1_n_n_wf

abbrev win0_0 : Pipeline.Window sig grid0 :=
  Pipeline.Window.ofSpec (Memref.whole main_v0) S199x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S199x16x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S200x16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x199x64 : Shape := ⟨3, ![4096, 199, 64]⟩
abbrev S4096x64 : Shape := ⟨2, ![4096, 64]⟩
abbrev S64x64 : Shape := ⟨2, ![64, 64]⟩
abbrev S64 : Shape := ⟨1, ![64]⟩
abbrev S200x64 : Shape := ⟨2, ![200, 64]⟩
abbrev S1x64 : Shape := ⟨2, ![1, 64]⟩
abbrev S4096x1x64 : Shape := ⟨3, ![4096, 1, 64]⟩
abbrev S4096x200x64 : Shape := ⟨3, ![4096, 200, 64]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x200x64 : Shape := ⟨3, ![1, 200, 64]⟩

abbrev nBuf : Space → Nat
  | .hbm => 38
  | .vmem => 0
  | .smem => 0
  | _ => 0

abbrev bufTy : (tb : Table) → Fin (tcTables nBuf tb) → BufTy
  | .hbm, ⟨0, _⟩ => ⟨S4096x199x64, .f32⟩
  | .hbm, ⟨1, _⟩ => ⟨S4096x64, .f32⟩
  | .hbm, ⟨2, _⟩ => ⟨S64x64, .f32⟩
  | .hbm, ⟨3, _⟩ => ⟨S64, .f32⟩
  | .hbm, ⟨4, _⟩ => ⟨S200x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | .hbm, ⟨9, _⟩ => ⟨S4096x1x64, .f32⟩
  | .hbm, ⟨10, _⟩ => ⟨S4096x200x64, .f32⟩
  | .hbm, ⟨11, _⟩ => ⟨S200, .i32⟩
  | .hbm, ⟨12, _⟩ => ⟨S_, .i32⟩
  | .hbm, ⟨13, _⟩ => ⟨S200, .i32⟩
  | .hbm, ⟨14, _⟩ => ⟨S200, .i1⟩
  | .hbm, ⟨15, _⟩ => ⟨S_, .i32⟩
  | .hbm, ⟨16, _⟩ => ⟨S200, .i32⟩
  | .hbm, ⟨17, _⟩ => ⟨S200, .i32⟩
  | .hbm, ⟨18, _⟩ => ⟨S200, .i32⟩
  | .hbm, ⟨19, _⟩ => ⟨S200x1, .i32⟩
  | .hbm, ⟨20, _⟩ => ⟨S1, .i32⟩
  | .hbm, ⟨21, _⟩ => ⟨S_, .i32⟩
  | .hbm, ⟨22, _⟩ => ⟨S200x1, .i32⟩
  | .hbm, ⟨23, _⟩ => ⟨S200x1, .i1⟩
  | .hbm, ⟨24, _⟩ => ⟨S1x1, .i32⟩
  | .hbm, ⟨25, _⟩ => ⟨S200x1, .i32⟩
  | .hbm, ⟨26, _⟩ => ⟨S200x1, .i1⟩
  | .hbm, ⟨27, _⟩ => ⟨S200x1, .i1⟩
  | .hbm, ⟨28, _⟩ => ⟨S_, .i1⟩
  | .hbm, ⟨29, _⟩ => ⟨S200, .i1⟩
  | .hbm, ⟨30, _⟩ => ⟨S200x64, .f32⟩
  | .hbm, ⟨31, _⟩ => ⟨S200x64, .i1⟩
  | .hbm, ⟨32, _⟩ => ⟨S_, .f32⟩
  | .hbm, ⟨33, _⟩ => ⟨S200x64, .f32⟩
  | .hbm, ⟨34, _⟩ => ⟨S200x64, .f32⟩
  | .hbm, ⟨35, _⟩ => ⟨S1x200x64, .f32⟩
  | .hbm, ⟨36, _⟩ => ⟨S4096x200x64, .f32⟩
  | .hbm, ⟨37, _⟩ => ⟨S4096x200x64, .f32⟩
  | _, _ => ⟨S4096x199x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4096x64_S4096x1x64_0_2 : S4096x64.BroadcastsInDim S4096x1x64 (![0, 2] : Fin 2 → Fin S4096x1x64.rank)
  concatenates_S4096x1x64_S4096x199x64_S4096x200x64_d1 : Shape.Concatenates [S4096x1x64, S4096x199x64] S4096x200x64 1
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  h_S_ : 0 < S_.numel
  bcast_S200_S200x64_0 : S200.BroadcastsInDim S200x64 (![0] : Fin 1 → Fin S200x64.rank)
  bcast_S_S200x64 : S_.BroadcastsInDim S200x64 (![] : Fin 0 → Fin S200x64.rank)
  bcast_S200x64_S1x200x64_1_2 : S200x64.BroadcastsInDim S1x200x64 (![1, 2] : Fin 2 → Fin S1x200x64.rank)
  bcast_S1x200x64_S4096x200x64_0_1_2 : S1x200x64.BroadcastsInDim S4096x200x64 (![0, 1, 2] : Fin 3 → Fin S4096x200x64.rank)
  dot_S4096x64_S64x64_S4096x64_1_0_0_1_n_n_wf : DotDims.WF S4096x64 S64x64 S4096x64 [1] [0] [0] [1] [] []
  gather_S200x64_S200x1_S200x64_1_0_n_n_0_1_164_wf : GatherDims.WF S200x64 S200x1 S200x64 [1] [0] [] [0] [] 1 ![1, 64]

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S200x64_S200x1_S200x64_1_0_n_n_0_1_164 : GatherDims S200x64 S200x1 S200x64 where
  offsetDims := [1]
  collapsedSliceDims := [0]
  operandBatchingDims := []
  startIndicesBatchingDims := []
  startIndexMap := [0]
  indexVectorDim := 1
  sliceSizes := ![1, 64]
  wf := gather_S200x64_S200x1_S200x64_1_0_n_n_0_1_164_wf

class Facts : Prop extends Facts₀ where

variable [Facts]
-- ==== Proof.Spec.lean ====
/-
  What the position-embedding encoder computes, entry by entry, over the extended reals.

  For batch row b, position n and feature s:
    position 0 holds the dense layer's output  ∑ₖ W[k, s] · energies[b, k]  plus the bias b[s] and the
    embedding row emb[0, s];
    position n ≥ 1 holds the token  tokens[b, n − 1, s]  plus the embedding row emb[n, s].
  Both programs are shown to end with exactly this array.
-/
import Idealize.ShloMosaic.PureOps.Ideal
import Idealize.ShloMosaic.Lib.ValueIdx

noncomputable section

open scoped BigOperators

namespace Cert.PosEmbed

open Idealize.ShloMosaic Idealize.ShloMosaic.ValueIdx

/-- The dense layer at batch row `b`, feature `s`: the sum over the input features k of W[k, s] · energies[b, k]. -/
def dense (en : FVec Ideal ⟨2, ![4096, 64]⟩ .f32) (W : FVec Ideal ⟨2, ![64, 64]⟩ .f32) (b : Fin 4096) (s : Fin 64) : EReal :=
  ∑ k : Fin 64, W (ix2 k s) * en (ix2 b k)

/-- One entry of the encoded array: the dense output with bias and embedding at position 0, a token plus its
    embedding row at every later position. -/
def entry (tok : FVec Ideal ⟨3, ![4096, 199, 64]⟩ .f32) (en : FVec Ideal ⟨2, ![4096, 64]⟩ .f32)
    (W : FVec Ideal ⟨2, ![64, 64]⟩ .f32) (bias : FVec Ideal ⟨1, ![64]⟩ .f32) (emb : FVec Ideal ⟨2, ![200, 64]⟩ .f32)
    (b : Fin 4096) (n : Fin 200) (s : Fin 64) : EReal :=
  if h : n.val = 0 then dense en W b s + (bias (ix1 s) + emb (ix2 n s))
  else tok (ix3 b ⟨n.val - 1, by have := n.isLt; omega⟩ s) + emb (ix2 n s)

/-- The encoded array [4096, 200, 64]. -/
def encoded (tok : FVec Ideal ⟨3, ![4096, 199, 64]⟩ .f32) (en : FVec Ideal ⟨2, ![4096, 64]⟩ .f32)
    (W : FVec Ideal ⟨2, ![64, 64]⟩ .f32) (bias : FVec Ideal ⟨1, ![64]⟩ .f32) (emb : FVec Ideal ⟨2, ![200, 64]⟩ .f32) :
    FVec Ideal ⟨3, ![4096, 200, 64]⟩ .f32 :=
  fun j => entry tok en W bias emb (j 0) (j 1) (j 2)

theorem encoded_apply (tok : FVec Ideal ⟨3, ![4096, 199, 64]⟩ .f32) (en : FVec Ideal ⟨2, ![4096, 64]⟩ .f32)
    (W : FVec Ideal ⟨2, ![64, 64]⟩ .f32) (bias : FVec Ideal ⟨1, ![64]⟩ .f32) (emb : FVec Ideal ⟨2, ![200, 64]⟩ .f32)
    (b : Fin 4096) (n : Fin 200) (s : Fin 64) :
    encoded tok en W bias emb (ix3 b n s) = entry tok en W bias emb b n s := rfl

/-- At position 0. -/
theorem entry_zero (tok : FVec Ideal ⟨3, ![4096, 199, 64]⟩ .f32) (en : FVec Ideal ⟨2, ![4096, 64]⟩ .f32)
    (W : FVec Ideal ⟨2, ![64, 64]⟩ .f32) (bias : FVec Ideal ⟨1, ![64]⟩ .f32) (emb : FVec Ideal ⟨2, ![200, 64]⟩ .f32)
    (b : Fin 4096) (n : Fin 200) (s : Fin 64) (h : n.val = 0) :
    entry tok en W bias emb b n s = dense en W b s + (bias (ix1 s) + emb (ix2 n s)) := dif_pos h

/-- At a later position n = p + 1. -/
theorem entry_succ (tok : FVec Ideal ⟨3, ![4096, 199, 64]⟩ .f32) (en : FVec Ideal ⟨2, ![4096, 64]⟩ .f32)
    (W : FVec Ideal ⟨2, ![64, 64]⟩ .f32) (bias : FVec Ideal ⟨1, ![64]⟩ .f32) (emb : FVec Ideal ⟨2, ![200, 64]⟩ .f32)
    (b : Fin 4096) (n : Fin 200) (s : Fin 64) (p : Fin 199) (h : n.val = p.val + 1) :
    entry tok en W bias emb b n s = tok (ix3 b p s) + emb (ix2 n s) := by
  unfold entry
  rw [dif_neg (by omega)]
  congr 3
  exact Fin.ext (by simp only; omega)

end Cert.PosEmbed

end
-- ==== Proof.LibDotColsCols.lean ====
/-
  Two readings at one entry, over the extended reals.

  A product that contracts BOTH operands along their axis 0 and batches nothing — lᵀ · w of a [K × a] array with a
  [K × c] array — has, at result entry (r, v) and contraction position q, the operand indices (q, r) and (q, v). So
  both the accumulate-into-zero `tpu.matmul` and the host's `dot_general` are the entry's plain sum
  ∑ q < K, l (q, r) · w (q, v)  over the shared axis.

  A column of unit width broadcast along the lanes, [a, 1] → [a, b] (and a stack of such columns,
  [m, a, 1] → [m, a, b]), reads at every lane the column's entry of that row.
-/
import Idealize.ShloMosaic.PureOps.Ideal.Laws
import Idealize.ShloMosaic.Lib.Pipeline.Value
import Idealize.ShloMosaic.Lib.ValueIdx

noncomputable section

open scoped BigOperators

/-! ## A product contracting both operands along axis 0, read at one entry -/

namespace Cert.Lib.DotColsCols

open Idealize.ShloMosaic Idealize.ShloMosaic.ValueIdx

variable {K a c : Nat}

/-- Dimension numbers of a columns-by-columns product [K, a] × [K, c] → [a, c]: contract the left operand's axis 0
    with the right operand's axis 0, result rows from the left operand's columns, result columns from the right
    operand's columns, no batch axis. It is the product  lᵀ · w. -/
structure ColsCols (d : DotDims ⟨2, ![K, a]⟩ ⟨2, ![K, c]⟩ ⟨2, ![a, c]⟩) : Prop where
  lc : d.lhsContracting = [0]
  rc : d.rhsContracting = [0]
  ln : d.lhsNonContracting = [1]
  rn : d.rhsNonContracting = [1]
  lb : d.lhsBatch = []
  rb : d.rhsBatch = []

variable {d : DotDims ⟨2, ![K, a]⟩ ⟨2, ![K, c]⟩ ⟨2, ![a, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem ColsCols.rank_contr (h : ColsCols d) : d.contr.rank = 1 := by rw [d.rank_contr, h.lc]; rfl

/-- The contracted axis has the shared length K. -/
theorem ColsCols.size_contr (h : ColsCols d) : d.contr.size ⟨0, by rw [h.rank_contr]; exact Nat.one_pos⟩ = K := by
  have := d.size_contr 0 (by rw [h.lc]; exact Nat.one_pos)
  rw [this]; simp only [h.lc]; rfl

/-- The left operand's row is the contraction position. -/
theorem ColsCols.lhs_row (h : ColsCols d) (j : (⟨2, ![a, c]⟩ : Shape).Idx) (k : d.contr.Idx) :
    (d.lhsIdx j k 0).val = (k ⟨0, by rw [h.rank_contr]; exact Nat.one_pos⟩).val :=
  d.lhsIdx_val_of_single h.lc j k

/-- The left operand's column is the result's row: its axis 1 is the one kept axis, first among the result's axes. -/
theorem ColsCols.lhs_col (h : ColsCols d) (j : (⟨2, ![a, c]⟩ : Shape).Idx) (k : d.contr.Idx) :
    (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The right operand's row is the contraction position. -/
theorem ColsCols.rhs_row (h : ColsCols d) (j : (⟨2, ![a, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem ColsCols.rhs_col (h : ColsCols d) (j : (⟨2, ![a, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum at result entry (r, v), re-indexed by the shared axis: ∑ q < K, l (q, r) · w (q, v). -/
theorem ColsCols.sum_eq (h : ColsCols d) (l : (⟨2, ![K, a]⟩ : Shape).Idx → EReal) (w : (⟨2, ![K, c]⟩ : Shape).Idx → EReal)
    (r : Fin a) (v : Fin c) :
    ∑ k : d.contr.Idx, l (d.lhsIdx (ix2 r v) k) * w (d.rhsIdx (ix2 r v) k) = ∑ q : Fin K, l (ix2 q r) * w (ix2 q v) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (q, result row)
  have e1 : d.lhsIdx (ix2 r v) ((contrEquiv1 d K h.rank_contr h.size_contr).symm q) = ix2 q r := by
    funext x
    match x with
    | ⟨0, _⟩ => exact Fin.ext ((h.lhs_row (ix2 r v) _).trans hk)
    | ⟨1, _⟩ => exact Fin.ext (h.lhs_col (ix2 r v) _)
  -- right operand at (q, result column)
  have e2 : d.rhsIdx (ix2 r v) ((contrEquiv1 d K h.rank_contr h.size_contr).symm q) = ix2 q v := by
    funext x
    match x with
    | ⟨0, _⟩ => exact Fin.ext ((h.rhs_row (ix2 r v) _).trans hk)
    | ⟨1, _⟩ => exact Fin.ext (h.rhs_col (ix2 r v) _)
  exact congrArg₂ (· * ·) (congrArg l e1) (congrArg w e2)

/-- `tpu.matmul` into the zero accumulator, at entry (r, v), at the ideal values (operands of any float formats):
    the plain sum over the shared axis of the two columns' products. -/
theorem ColsCols.matmul_zero_apply {φ₁ φ₂ : FTy} (h : ColsCols d) (prec : Option ContractPrecision)
    (l : FVec Ideal ⟨2, ![K, a]⟩ φ₁) (w : FVec Ideal ⟨2, ![K, c]⟩ φ₂) (r : Fin a) (v : Fin c) :
    matmul (F := Ideal) d prec l w (constant ⟨2, ![a, c]⟩ .f32 0x00000000#32) (ix2 r v)
      = ∑ q : Fin K, l (ix2 q r) * w (ix2 q v) :=
  (Ideal.matmul_constant_zero_apply d prec l w (ix2 r v)).trans (h.sum_eq l w r v)

/-- The host's `dot_general` with the same dimension numbers, at entry (r, v), at the ideal values. -/
theorem ColsCols.dotGeneral_apply {φ₁ φ₂ : FTy} (h : ColsCols d) (prec : Option ContractPrecision)
    (l : FVec Ideal ⟨2, ![K, a]⟩ φ₁) (w : FVec Ideal ⟨2, ![K, c]⟩ φ₂) (r : Fin a) (v : Fin c) :
    Host.dotGeneral (F := Ideal) d prec l w (ix2 r v) = ∑ q : Fin K, l (ix2 q r) * w (ix2 q v) :=
  (Ideal.dotGeneral_apply d prec .single l w (ix2 r v)).trans (h.sum_eq l w r v)

end Cert.Lib.DotColsCols

/-! ## A column of unit width broadcast along the lanes -/

namespace Cert.Lib.ColumnBroadcast

open Idealize.ShloMosaic Idealize.ShloMosaic.ValueIdx

variable {α : Type}

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[m, a, 1]` stack of columns broadcast to `[m, a, b]` reads, at `(n, p, q)`, the entry of row `p` of column `n`. -/
theorem broadcastTo_ma1_mab_apply {m a b : ℕ} (v : (⟨3, ![m, a, 1]⟩ : Shape).Idx → α)
    (h : (⟨3, ![m, a, 1]⟩ : Shape).Broadcasts ⟨3, ![m, a, b]⟩) (n : Fin m) (p : Fin a) (q : Fin b) :
    broadcastTo ⟨3, ![m, a, b]⟩ v h (ix3 n p q) = v (ix3 n p (0 : Fin 1)) := by
  refine broadcastTo_apply v h (ix3 n p q) (ix3 n p (0 : Fin 1)) fun ax => ?_
  match ax with
  | ⟨0, _⟩ =>
    show n.val = if m = 1 then 0 else n.val
    split
    · have := n.isLt; omega
    · rfl
  | ⟨1, _⟩ =>
    show p.val = if a = 1 then 0 else p.val
    split
    · have := p.isLt; omega
    · rfl
  | ⟨2, _⟩ => rfl

end Cert.Lib.ColumnBroadcast

end
-- ==== Proof.Payload.lean ====
/-
  The two values the kernel body stores, each read at one entry, over the extended reals.

  The first value is the dense layer on a block: the weight block w, kept as [1, 64, 16], is viewed as the
  [64, 16] matrix (k, p) ↦ w (0, k, p); it is multiplied with the energies block e of shape [64, 512] by
  contracting BOTH operands along their axis 0, into a zero accumulator; the bias column eb of shape [16, 1]
  is added to every lane; and the [16, 512] result is viewed as [1, 16, 512]. At entry (0, p, q) it is
      ∑ k < 64, w (0, k, p) · e (k, q)  +  eb (p, 0).
  The second value is the tokens block plus the embedding column added to every lane: at (n, p, q) it is
      tk (n, p, q) + pe (n, p, 0).
-/
import proofs.«105355_g44925357916747_cont_8to1_c_751_13_alg».proof.Proof.Gen.KernelIdeal.Skeleton
import proofs.«105355_g44925357916747_cont_8to1_c_751_13_alg».proof.Proof.LibDotColsCols
import Idealize.ShloMosaic.PureOps.Ideal.Laws
import Idealize.ShloMosaic.Lib.ValueIdx
import Idealize.ShloMosaic.Lib.ValueLayout

noncomputable section

open scoped BigOperators

/-! ## The kernel body's two stored values -/

namespace Cert.KernelIdeal.Pay

open Cert.KernelIdeal Cert.KernelIdeal.Gen Idealize.ShloMosaic Idealize.ShloMosaic.ValueIdx
open Cert.Lib.DotColsCols Cert.Lib.ColumnBroadcast

/-- The printed dimension numbers contract both operands along axis 0 and keep each operand's axis 1. -/
theorem dot_colsCols : ColsCols (K := 64) (a := 16) (c := 512) dot_S64x16_S64x512_S16x512_0_0_1_1_n_n :=
  ⟨rfl, rfl, rfl, rfl, rfl, rfl⟩

/-- The first stored value at entry (0, p, q): the weight block's column p against the energies block's column q,
    summed over the 64 shared rows, plus the bias of row p. -/
theorem pay1_apply (w : Vec Ideal S1x64x16 .f32) (e : Vec Ideal S64x512 .f32) (eb : Vec Ideal S16x1 .f32)
    (p : Fin 16) (q : Fin 512) :
    k0_pay1 (F := Ideal) w e eb (ix3 0 p q) = (∑ k : Fin 64, w (ix3 0 k p) * e (ix2 k q)) + eb (ix2 p 0) := by
  unfold k0_pay1
  -- the [16, 512] sum viewed as [1, 16, 512]: entry (0, p, q) is entry (p, q)
  refine (shapeCast_ab_1ab_apply _ _ 0 p q).trans ?_
  -- a sum of arrays is read entry by entry
  refine (addf_apply _ _ _).trans ?_
  refine congrArg₂ (· + ·) ?_ ?_
  · -- the product into zero is the plain sum over the shared axis
    refine (dot_colsCols.matmul_zero_apply none _ _ p q).trans ?_
    refine Finset.sum_congr rfl fun k _ => ?_
    refine congrArg₂ (· * ·) ?_ ?_
    · -- the weight block viewed as a matrix: entry (k, p) is entry (0, k, p)
      exact shapeCast_1ab_ab_apply w _ k p
    · exact congrFun (shapeCast_self e _) (ix2 k q)
  · -- the bias column along the lanes: entry (p, q) is the column's row p
    refine (broadcastTo_a1_ab_apply _ _ p q).trans ?_
    exact congrFun (shapeCast_self eb _) (ix2 p 0)

/-- The second stored value at entry (n, p, q): the token there plus the embedding column's entry (n, p). -/
theorem pay2_apply (tk : Vec Ideal S199x16x512 .f32) (pe : Vec Ideal S199x16x1 .f32)
    (n : Fin 199) (p : Fin 16) (q : Fin 512) :
    k0_pay2 (F := Ideal) tk pe (ix3 n p q) = tk (ix3 n p q) + pe (ix3 n p 0) := by
  unfold k0_pay2
  refine (addf_apply _ _ _).trans ?_
  refine congrArg₂ (· + ·) ?_ ?_
  · exact congrFun (shapeCast_self tk _) (ix3 n p q)
  · -- the embedding column along the lanes: entry (n, p, q) is the column's entry (n, p)
    refine (broadcastTo_ma1_mab_apply _ _ n p q).trans ?_
    exact congrFun (shapeCast_self pe _) (ix3 n p 0)

end Cert.KernelIdeal.Pay

end
-- ==== Proof.KernelArrays.lean ====
/-
  The arrays the kernel region reads, as the host operations before it leave them, each read at one entry as an
  entry of an argument array.

    tokens transposed to [199, 64, 4096]        : entry (n, s, b) is tokens[b, n, s]
    energies transposed to [64, 4096]           : entry (k, b)    is energies[b, k]
    rows 1..199 of emb as a column [199, 64, 1] : entry (n, s, 0) is emb[n + 1, s]
    bias plus row 0 of emb as a column [64, 1]  : entry (s, 0)    is b[s] + emb[0, s]
    W cut into four panels of sixteen columns, [4, 64, 16] : entry (g, k, p) is W[k, 16 g + p]
-/
import proofs.«105355_g44925357916747_cont_8to1_c_751_13_alg».proof.Proof.Gen.KernelIdeal.Frame.Runs
import Idealize.ShloMosaic.Lib.Pipeline.Value
import Idealize.ShloMosaic.Lib.ValueIdx
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The argument arrays at their literal types -/

/-- tokens [4096, 199, 64] on core `c`. -/
abbrev tokens (c : Dev nD) : S4096x199x64.Idx → EReal := m ((c : Thread nD τ).loc main_arg0)
/-- energies [4096, 64]. -/
abbrev energies (c : Dev nD) : S4096x64.Idx → EReal := m ((c : Thread nD τ).loc main_arg1)
/-- W [64, 64]. -/
abbrev weights (c : Dev nD) : S64x64.Idx → EReal := m ((c : Thread nD τ).loc main_arg2)
/-- b [64]. -/
abbrev bias (c : Dev nD) : S64.Idx → EReal := m ((c : Thread nD τ).loc main_arg3)
/-- emb [200, 64]. -/
abbrev embed (c : Dev nD) : S200x64.Idx → EReal := m ((c : Thread nD τ).loc main_arg4)

/-! ## Each array as the operations' term of the arguments -/

theorem v0_term (c : Dev nD) :
    (V m c main_v0 : S199x64x4096.Idx → EReal)
      = transpose S199x64x4096 [1, 2, 0] (m ((c : Thread nD τ).loc main_arg0)) transposes_S4096x199x64_S199x64x4096_1_2_0 := by
  show StableHlo.after hostOps0 (fun b => m (c, b)) (Proc.devRef .tc main_v0) = _
  after_results

theorem v1_term (c : Dev nD) :
    (V m c main_v1 : S64x4096.Idx → EReal)
      = transpose S64x4096 [1, 0] (m ((c : Thread nD τ).loc main_arg1)) transposes_S4096x64_S64x4096_1_0 := by
  show StableHlo.after hostOps0 (fun b => m (c, b)) (Proc.devRef .tc main_v1) = _
  after_results

theorem v3_term (c : Dev nD) :
    (V m c main_v3 : S199x64x1.Idx → EReal)
      = shapeCast S199x64x1 (extractStridedSlice S199x64 ![1, 0] (m ((c : Thread nD τ).loc main_arg4)) slices_S200x64_S199x64_1_0)
          shapeCasts_S199x64_S199x64x1 := by
  show StableHlo.after hostOps0 (fun b => m (c, b)) (Proc.devRef .tc main_v3) = _
  after_results
  rfl

theorem v7_term (c : Dev nD) :
    (V m c main_v7 : S64x1.Idx → EReal)
      = shapeCast S64x1 (addf (F := Ideal) (s := S64) (φ := .f32) (m ((c : Thread nD τ).loc main_arg3))
          (shapeCast S64 (extractStridedSlice S1x64 ![0, 0] (m ((c : Thread nD τ).loc main_arg4) : S200x64.Idx → EReal) slices_S200x64_S1x64_0_0)
            shapeCasts_S1x64_S64)) shapeCasts_S64_S64x1 := by
  show StableHlo.after hostOps0 (fun b => m (c, b)) (Proc.devRef .tc main_v7) = _
  after_results
  rfl

theorem v9_term (c : Dev nD) :
    (V m c main_v9 : S4x64x16.Idx → EReal)
      = transpose S4x64x16 [1, 0, 2] (shapeCast S64x4x16 (m ((c : Thread nD τ).loc main_arg2)) shapeCasts_S64x64_S64x4x16)
          transposes_S64x4x16_S4x64x16_1_0_2 := by
  show StableHlo.after hostOps0 (fun b => m (c, b)) (Proc.devRef .tc main_v9) = _
  after_results
  rfl

/-! ## The same, at one entry -/

/-- The transposed tokens at (n, s, b) are tokens[b, n, s]. -/
theorem v0_apply (c : Dev nD) (n : Fin 199) (s : Fin 64) (b : Fin 4096) :
    (V m c main_v0 : S199x64x4096.Idx → EReal) (ix3 n s b) = tokens m c (ix3 b n s) :=
  (congrFun (v0_term m c) (ix3 n s b)).trans
    (transpose_apply [1, 2, 0] _ transposes_S4096x199x64_S199x64x4096_1_2_0 (ix3 n s b) (ix3 b n s) fun a => by
      match a with
      | ⟨0, _⟩ => rfl
      | ⟨1, _⟩ => rfl
      | ⟨2, _⟩ => rfl)

/-- The transposed energies at (k, b) are energies[b, k]. -/
theorem v1_apply (c : Dev nD) (k : Fin 64) (b : Fin 4096) :
    (V m c main_v1 : S64x4096.Idx → EReal) (ix2 k b) = energies m c (ix2 b k) :=
  (congrFun (v1_term m c) (ix2 k b)).trans
    (transpose_apply [1, 0] _ transposes_S4096x64_S64x4096_1_0 (ix2 k b) (ix2 b k) fun a => by
      match a with
      | ⟨0, _⟩ => rfl
      | ⟨1, _⟩ => rfl)

/-- The embedding column at (n, s, 0) is emb[n + 1, s]. -/
theorem v3_apply (c : Dev nD) (n : Fin 199) (s : Fin 64) (n' : Fin 200) (hn : n'.val = n.val + 1) :
    (V m c main_v3 : S199x64x1.Idx → EReal) (ix3 n s 0) = embed m c (ix2 n' s) := by
  refine (congrFun (v3_term m c) (ix3 n s 0)).trans ?_
  refine (shapeCast_apply _ shapeCasts_S199x64_S199x64x1 (ix3 n s 0) (ix2 n s) ?_).trans ?_
  · rw [Shape.rowMajor_val_two, Shape.rowMajor_val_three]
    show n.val * 64 + s.val = (n.val * 64 + s.val) * 1 + 0
    omega
  · refine extractStridedSlice_apply ![1, 0] _ slices_S200x64_S199x64_1_0 (ix2 n s) (ix2 n' s) fun a => ?_
    match a with
    | ⟨0, _⟩ => show n'.val = 1 + n.val; omega
    | ⟨1, _⟩ => show s.val = 0 + s.val; omega

/-- The bias column at (s, 0) is b[s] + emb[0, s]. -/
theorem v7_apply (c : Dev nD) (s : Fin 64) (z : Fin 200) (hz : z.val = 0) :
    (V m c main_v7 : S64x1.Idx → EReal) (ix2 s 0)
      = bias m c (ix1 s) + embed m c (ix2 z s) := by
  refine (congrFun (v7_term m c) (ix2 s 0)).trans ?_
  refine (shapeCast_apply _ shapeCasts_S64_S64x1 (ix2 s 0) (ix1 s) ?_).trans ?_
  · rw [Shape.rowMajor_val_one, Shape.rowMajor_val_two]
    show s.val = s.val * 1 + 0
    omega
  · refine (addf_apply _ _ (ix1 s)).trans ?_
    refine congrArg (fun x : EReal => bias m c (ix1 s) + x) ?_
    refine (shapeCast_apply _ shapeCasts_S1x64_S64 (ix1 s) (ix2 0 s) ?_).trans ?_
    · rw [Shape.rowMajor_val_one, Shape.rowMajor_val_two]
      show 0 * 64 + s.val = s.val
      omega
    · refine extractStridedSlice_apply ![0, 0] _ slices_S200x64_S1x64_0_0 (ix2 0 s) (ix2 z s) fun a => ?_
      match a with
      | ⟨0, _⟩ => show z.val = 0 + 0; omega
      | ⟨1, _⟩ => show s.val = 0 + s.val; omega

/-- Panel g of W at (k, p) is W[k, 16 g + p]. -/
theorem v9_apply (c : Dev nD) (g : Fin 4) (k : Fin 64) (p : Fin 16) (s : Fin 64) (hs : s.val = g.val * 16 + p.val) :
    (V m c main_v9 : S4x64x16.Idx → EReal) (ix3 g k p) = weights m c (ix2 k s) := by
  refine (congrFun (v9_term m c) (ix3 g k p)).trans ?_
  refine (transpose_apply [1, 0, 2] _ transposes_S64x4x16_S4x64x16_1_0_2 (ix3 g k p) (ix3 k g p) fun a => by
      match a with
      | ⟨0, _⟩ => rfl
      | ⟨1, _⟩ => rfl
      | ⟨2, _⟩ => rfl).trans ?_
  refine shapeCast_apply _ shapeCasts_S64x64_S64x4x16 (ix3 k g p) (ix2 k s) ?_
  rw [Shape.rowMajor_val_two, Shape.rowMajor_val_three]
  show k.val * 64 + s.val = (k.val * 4 + g.val) * 16 + p.val
  omega

end Cert.KernelIdeal.Arrays

end
-- ==== Proof.KernelPieces.lean ====
/-
  What the kernel body leaves in the output's staging buffer [200, 16, 512] at one grid point.

  The body makes two stores: row 0 (a [1, 16, 512] slab) takes the dense value, rows 1..199 (a [199, 16, 512] slab)
  take tokens plus embedding. The two slabs tile the buffer, so the buffer's contents are those two values read
  through their slabs: entry (0, p, q) is the first value at (0, p, q), entry (n + 1, p, q) the second at (n, p, q).
-/
import proofs.«105355_g44925357916747_cont_8to1_c_751_13_alg».proof.Proof.Gen.KernelIdeal.Frame
import Idealize.ShloMosaic.Lib.Pipeline.Value
import Idealize.ShloMosaic.Lib.ValueIdx

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx Idealize.SL.Sem

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The slab of rows 1..199. -/
abbrev rowsRect : Rect S200x16x512 := Rect.unit (s := S200x16x512) ![1, 0, 0] S199x16x512.size inb_S200x16x512_S199x16x512_1_0_0
/-- The slab of row 0. -/
abbrev row0Rect : Rect S200x16x512 := Rect.unit (s := S200x16x512) ![0, 0, 0] S1x16x512.size inb_S200x16x512_S1x16x512_0_0_0

/-- The staging buffer after the body: the later store's value on rows 1..199, the earlier one's on row 0. -/
theorem out_pieces (c : Dev nD) (i : grid0.Coords) (arg2 : Memref sig .tc .vmem S199x16x512 .f32) (harg2 : arg2.IsWhole) (arg3 : Memref sig .tc .vmem S64x512 .f32) (harg3 : arg3.IsWhole) (arg4 : Memref sig .tc .vmem S1x64x16 .f32) (harg4 : arg4.IsWhole) (arg5 : Memref sig .tc .vmem S16x1 .f32) (harg5 : arg5.IsWhole) (arg6 : Memref sig .tc .vmem S199x16x1 .f32) (harg6 : arg6.IsWhole) (arg7 : Memref sig .tc .vmem S200x16x512 .f32) (harg7 : arg7.IsWhole)
    (x0 : Vec F S199x16x512 .f32) (x1 : Vec F S64x512 .f32) (x2 : Vec F S1x64x16 .f32) (x3 : Vec F S16x1 .f32) (x4 : Vec F S199x16x1 .f32) :
    out0_A_5 c i arg2 harg2 arg3 harg3 arg4 harg4 arg5 harg5 arg6 harg6 arg7 harg7 x0 x1 x2 x3 x4
      = View.canon [(⟨rowsRect, k0_pay2 x0 x4⟩ : View.Piece (Elt F) S200x16x512 .f32), ⟨row0Rect, k0_pay1 x2 x1 x3⟩] := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  simp only [View.readAt_eq_ld, harg2.read_unread, harg3.read_unread, harg4.read_unread, harg5.read_unread, harg6.read_unread,
    View.ld_unit_zero (S := S199x16x512) zeros3, View.ld_unit_zero (S := S64x512) zeros2, View.ld_unit_zero (S := S1x64x16) zeros3,
    View.ld_unit_zero (S := S16x1) zeros2, View.ld_unit_zero (S := S199x16x1) zeros3]

/-- Two values stored through the two slabs, read in row 0: the value stored through the row-0 slab. -/
theorem canon_row0 (w2 : S199x16x512.Idx → Elt F .f32) (w1 : S1x16x512.Idx → Elt F .f32) (p : Fin 16) (q : Fin 512) :
    View.canon [(⟨rowsRect, w2⟩ : View.Piece (Elt F) S200x16x512 .f32), ⟨row0Rect, w1⟩] (ix3 0 p q) = w1 (ix3 0 p q) := by
  have hnot : (ix3 0 p q : S200x16x512.Idx) ∉ (rowsRect).set := by
    rw [Rect.mem_set_unit]
    intro h
    have h0 : (1 : Nat) ≤ 0 := (h 0).1
    omega
  refine (View.canon_cons_of_not_mem (⟨rowsRect, w2⟩ : View.Piece (Elt F) S200x16x512 .f32) [⟨row0Rect, w1⟩] hnot).trans ?_
  have he : (ix3 0 p q : S200x16x512.Idx) = row0Rect.emb (ix3 0 p q : S1x16x512.Idx) := by
    funext a; apply Fin.ext
    match a with
    | ⟨0, _⟩ => show 0 = 0 + 1 * 0; rfl
    | ⟨1, _⟩ => show p.val = 0 + 1 * p.val; omega
    | ⟨2, _⟩ => show q.val = 0 + 1 * q.val; omega
  rw [he]
  exact View.canon_cons_emb row0Rect w1 [] (ix3 0 p q)

/-- … and in row n + 1: the value stored through the slab of rows 1..199, at its row n. -/
theorem canon_rows (w2 : S199x16x512.Idx → Elt F .f32) (w1 : S1x16x512.Idx → Elt F .f32)
    (n : Fin 199) (n' : Fin 200) (hn : n'.val = n.val + 1) (p : Fin 16) (q : Fin 512) :
    View.canon [(⟨rowsRect, w2⟩ : View.Piece (Elt F) S200x16x512 .f32), ⟨row0Rect, w1⟩] (ix3 n' p q) = w2 (ix3 n p q) := by
  have he : (ix3 n' p q : S200x16x512.Idx) = rowsRect.emb (ix3 n p q : S199x16x512.Idx) := by
    funext a; apply Fin.ext
    match a with
    | ⟨0, _⟩ => show n'.val = 1 + 1 * n.val; omega
    | ⟨1, _⟩ => show p.val = 0 + 1 * p.val; omega
    | ⟨2, _⟩ => show q.val = 0 + 1 * q.val; omega
  rw [he]
  exact View.canon_cons_emb rowsRect w2 _ (ix3 n p q)

/-- Row 0 of the staging buffer holds the first stored value. -/
theorem out_row0 (c : Dev nD) (i : grid0.Coords) (arg2 : Memref sig .tc .vmem S199x16x512 .f32) (harg2 : arg2.IsWhole) (arg3 : Memref sig .tc .vmem S64x512 .f32) (harg3 : arg3.IsWhole) (arg4 : Memref sig .tc .vmem S1x64x16 .f32) (harg4 : arg4.IsWhole) (arg5 : Memref sig .tc .vmem S16x1 .f32) (harg5 : arg5.IsWhole) (arg6 : Memref sig .tc .vmem S199x16x1 .f32) (harg6 : arg6.IsWhole) (arg7 : Memref sig .tc .vmem S200x16x512 .f32) (harg7 : arg7.IsWhole)
    (x0 : Vec F S199x16x512 .f32) (x1 : Vec F S64x512 .f32) (x2 : Vec F S1x64x16 .f32) (x3 : Vec F S16x1 .f32) (x4 : Vec F S199x16x1 .f32) (p : Fin 16) (q : Fin 512) :
    out0_A_5 c i arg2 harg2 arg3 harg3 arg4 harg4 arg5 harg5 arg6 harg6 arg7 harg7 x0 x1 x2 x3 x4 (ix3 0 p q) = k0_pay1 x2 x1 x3 (ix3 0 p q) :=
  (congrFun (out_pieces c i arg2 harg2 arg3 harg3 arg4 harg4 arg5 harg5 arg6 harg6 arg7 harg7 x0 x1 x2 x3 x4) (ix3 0 p q)).trans (canon_row0 (k0_pay2 x0 x4) (k0_pay1 x2 x1 x3) p q)

/-- Row n + 1 of the staging buffer holds the second stored value's row n. -/
theorem out_rows (c : Dev nD) (i : grid0.Coords) (arg2 : Memref sig .tc .vmem S199x16x512 .f32) (harg2 : arg2.IsWhole) (arg3 : Memref sig .tc .vmem S64x512 .f32) (harg3 : arg3.IsWhole) (arg4 : Memref sig .tc .vmem S1x64x16 .f32) (harg4 : arg4.IsWhole) (arg5 : Memref sig .tc .vmem S16x1 .f32) (harg5 : arg5.IsWhole) (arg6 : Memref sig .tc .vmem S199x16x1 .f32) (harg6 : arg6.IsWhole) (arg7 : Memref sig .tc .vmem S200x16x512 .f32) (harg7 : arg7.IsWhole)
    (x0 : Vec F S199x16x512 .f32) (x1 : Vec F S64x512 .f32) (x2 : Vec F S1x64x16 .f32) (x3 : Vec F S16x1 .f32) (x4 : Vec F S199x16x1 .f32) (n : Fin 199) (n' : Fin 200) (hn : n'.val = n.val + 1) (p : Fin 16) (q : Fin 512) :
    out0_A_5 c i arg2 harg2 arg3 harg3 arg4 harg4 arg5 harg5 arg6 harg6 arg7 harg7 x0 x1 x2 x3 x4 (ix3 n' p q) = k0_pay2 x0 x4 (ix3 n p q) :=
  (congrFun (out_pieces c i arg2 harg2 arg3 harg3 arg4 harg4 arg5 harg5 arg6 harg6 arg7 harg7 x0 x1 x2 x3 x4) (ix3 n' p q)).trans (canon_rows (k0_pay2 x0 x4) (k0_pay1 x2 x1 x3) n n' hn p q)

end Cert.KernelIdeal.Pieces

end
-- ==== Proof.KernelBlocks.lean ====
/-
  The kernel's output array after all 32 grid points.

  The output, laid out [200, 64, 4096] (position, feature, batch row), is written back one [200, 16, 512] block per
  grid point: point (j, k) owns features 16 k .. 16 k + 15 and batch rows 512 j .. 512 j + 511, every position.
  At that point the body reads the same feature and batch ranges of the transposed tokens, the batch range of the
  transposed energies, panel k of W, and rows 16 k .. 16 k + 15 of the bias and embedding columns. Reading each block
  where the output's block says, what a point writes back is its block of ONE array: entry (n, s, b) is the encoded
  entry of batch row b, position n, feature s. The blocks cover the array, so the array ends holding that function.
-/
import proofs.«105355_g44925357916747_cont_8to1_c_751_13_alg».proof.Proof.Gen.KernelIdeal.Frame
import proofs.«105355_g44925357916747_cont_8to1_c_751_13_alg».proof.Proof.Spec
import proofs.«105355_g44925357916747_cont_8to1_c_751_13_alg».proof.Proof.Payload
import proofs.«105355_g44925357916747_cont_8to1_c_751_13_alg».proof.Proof.KernelArrays
import proofs.«105355_g44925357916747_cont_8to1_c_751_13_alg».proof.Proof.KernelPieces
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Arrays
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The output array [200, 64, 4096]: entry (n, s, b) is the encoded entry of batch row b, position n, feature s. -/
def outT (c : Dev nD) : S200x64x4096.Idx → EReal := fun i =>
  Cert.PosEmbed.entry (tokens m c) (energies m c) (weights m c) (bias m c) (embed m c) (i 2) (i 0) (i 1)

theorem outT_apply (c : Dev nD) (n : Fin 200) (s : Fin 64) (b : Fin 4096) :
    outT m c (ix3 n s b) = Cert.PosEmbed.entry (tokens m c) (energies m c) (weights m c) (bias m c) (embed m c) b n s := rfl

/-! ## Where each window's block sits, relative to the output's block -/

/-- The output's block index at point t is (0, k, j) with k < 4 and j < 8; the tokens' block index is the same; the
    energies' is (0, j); W's panel is k; the bias column's block is k; the embedding column's is (0, k, 0). -/
theorem idx_facts : ∀ t : Fin cfg0.N,
    win0_5.index t (0 : Fin 3) = 0 ∧ win0_5.index t (1 : Fin 3) ≤ 3 ∧ win0_5.index t (2 : Fin 3) ≤ 7
    ∧ win0_0.index t (0 : Fin 3) = 0 ∧ win0_0.index t (1 : Fin 3) = win0_5.index t (1 : Fin 3) ∧ win0_0.index t (2 : Fin 3) = win0_5.index t (2 : Fin 3)
    ∧ win0_1.index t (0 : Fin 2) = 0 ∧ win0_1.index t (1 : Fin 2) = win0_5.index t (2 : Fin 3)
    ∧ win0_2.index t (0 : Fin 3) = win0_5.index t (1 : Fin 3) ∧ win0_2.index t (1 : Fin 3) = 0 ∧ win0_2.index t (2 : Fin 3) = 0
    ∧ win0_3.index t (0 : Fin 2) = win0_5.index t (1 : Fin 3) ∧ win0_3.index t (1 : Fin 2) = 0
    ∧ win0_4.index t (0 : Fin 3) = 0 ∧ win0_4.index t (1 : Fin 3) = win0_5.index t (1 : Fin 3) ∧ win0_4.index t (2 : Fin 3) = 0 :=
  (by decide +kernel : ∀ t : Fin grid0.N, _)

/-- Every block index (0, k, j) of the output is some point's. -/
theorem idx_onto : ∀ (k : Fin 4) (j : Fin 8), ∃ t : Fin cfg0.N, win0_5.index t = ![0, k.val, j.val] :=
  (by decide +kernel : ∀ (k : Fin 4) (j : Fin 8), ∃ t : Fin grid0.N, win0_5.index t = ![0, k.val, j.val])

/-! ## The input blocks at a point, at their literal shapes, read at one entry -/

/-- The tokens' block at point t. -/
abbrev tokBlk (c : Dev nD) (t : Fin cfg0.N) : S199x16x512.Idx → EReal := iblk m c 0 t
/-- The energies' block. -/
abbrev enBlk (c : Dev nD) (t : Fin cfg0.N) : S64x512.Idx → EReal := iblk m c 1 t
/-- W's panel. -/
abbrev wBlk (c : Dev nD) (t : Fin cfg0.N) : S1x64x16.Idx → EReal := iblk m c 2 t
/-- The bias column's block. -/
abbrev ebBlk (c : Dev nD) (t : Fin cfg0.N) : S16x1.Idx → EReal := iblk m c 3 t
/-- The embedding column's block. -/
abbrev peBlk (c : Dev nD) (t : Fin cfg0.N) : S199x16x1.Idx → EReal := iblk m c 4 t

/-- The tokens' block at (n, p, q) is tokens[b, n, s] for the feature s and batch row b the output's block puts there. -/
theorem tokBlk_apply (c : Dev nD) (t : Fin cfg0.N) (n : Fin 199) (p : Fin 16) (q : Fin 512) (s : Fin 64) (b : Fin 4096)
    (hs : s.val = win0_5.index t (1 : Fin 3) * 16 + p.val) (hb : b.val = win0_5.index t (2 : Fin 3) * 512 + q.val) :
    tokBlk m c t (ix3 n p q) = tokens m c (ix3 b n s) := by
  obtain ⟨f0, f1, f2, g0, g1, g2, -⟩ := idx_facts t
  have he : ((cfg0.win 0).blk t).view.emb (ix3 n p q : S199x16x512.Idx) = (ix3 n s b : S199x64x4096.Idx) := by
    funext a; apply Fin.ext
    match a with
    | ⟨0, _⟩ => show win0_0.index t (0 : Fin 3) * 199 + 1 * n.val = n.val; omega
    | ⟨1, _⟩ => show win0_0.index t (1 : Fin 3) * 16 + 1 * p.val = s.val; omega
    | ⟨2, _⟩ => show win0_0.index t (2 : Fin 3) * 512 + 1 * q.val = b.val; omega
  show (V m c main_v0 : S199x64x4096.Idx → EReal) (((cfg0.win 0).blk t).view.emb (ix3 n p q : S199x16x512.Idx)) = _
  rw [he]
  exact v0_apply m c n s b

/-- The energies' block at (k, q) is energies[b, k]. -/
theorem enBlk_apply (c : Dev nD) (t : Fin cfg0.N) (k : Fin 64) (q : Fin 512) (b : Fin 4096)
    (hb : b.val = win0_5.index t (2 : Fin 3) * 512 + q.val) :
    enBlk m c t (ix2 k q) = energies m c (ix2 b k) := by
  obtain ⟨f0, f1, f2, g0, g1, g2, h0, h1, -⟩ := idx_facts t
  have he : ((cfg0.win 1).blk t).view.emb (ix2 k q : S64x512.Idx) = (ix2 k b : S64x4096.Idx) := by
    funext a; apply Fin.ext
    match a with
    | ⟨0, _⟩ => show win0_1.index t (0 : Fin 2) * 64 + 1 * k.val = k.val; omega
    | ⟨1, _⟩ => show win0_1.index t (1 : Fin 2) * 512 + 1 * q.val = b.val; omega
  show (V m c main_v1 : S64x4096.Idx → EReal) (((cfg0.win 1).blk t).view.emb (ix2 k q : S64x512.Idx)) = _
  rw [he]
  exact v1_apply m c k b

/-- W's panel at (0, k, p) is W[k, s]. -/
theorem wBlk_apply (c : Dev nD) (t : Fin cfg0.N) (k : Fin 64) (p : Fin 16) (s : Fin 64)
    (hs : s.val = win0_5.index t (1 : Fin 3) * 16 + p.val) :
    wBlk m c t (ix3 0 k p) = weights m c (ix2 k s) := by
  obtain ⟨f0, f1, f2, g0, g1, g2, h0, h1, i0, i1, i2, -⟩ := idx_facts t
  have hg : win0_5.index t (1 : Fin 3) < 4 := by omega
  have he : ((cfg0.win 2).blk t).view.emb (ix3 0 k p : S1x64x16.Idx) = (ix3 ⟨win0_5.index t (1 : Fin 3), hg⟩ k p : S4x64x16.Idx) := by
    funext a; apply Fin.ext
    match a with
    | ⟨0, _⟩ => show win0_2.index t (0 : Fin 3) * 1 + 1 * 0 = win0_5.index t (1 : Fin 3); omega
    | ⟨1, _⟩ => show win0_2.index t (1 : Fin 3) * 64 + 1 * k.val = k.val; omega
    | ⟨2, _⟩ => show win0_2.index t (2 : Fin 3) * 16 + 1 * p.val = p.val; omega
  show (V m c main_v9 : S4x64x16.Idx → EReal) (((cfg0.win 2).blk t).view.emb (ix3 0 k p : S1x64x16.Idx)) = _
  rw [he]
  exact v9_apply m c ⟨win0_5.index t (1 : Fin 3), hg⟩ k p s hs

/-- The bias column's block at (p, 0) is b[s] + emb[0, s]. -/
theorem ebBlk_apply (c : Dev nD) (t : Fin cfg0.N) (p : Fin 16) (s : Fin 64) (z : Fin 200) (hz : z.val = 0)
    (hs : s.val = win0_5.index t (1 : Fin 3) * 16 + p.val) :
    ebBlk m c t (ix2 p 0) = bias m c (ix1 s) + embed m c (ix2 z s) := by
  obtain ⟨f0, f1, f2, g0, g1, g2, h0, h1, i0, i1, i2, j0, j1, -⟩ := idx_facts t
  have he : ((cfg0.win 3).blk t).view.emb (ix2 p 0 : S16x1.Idx) = (ix2 s 0 : S64x1.Idx) := by
    funext a; apply Fin.ext
    match a with
    | ⟨0, _⟩ => show win0_3.index t (0 : Fin 2) * 16 + 1 * p.val = s.val; omega
    | ⟨1, _⟩ => show win0_3.index t (1 : Fin 2) * 1 + 1 * 0 = 0; omega
  show (V m c main_v7 : S64x1.Idx → EReal) (((cfg0.win 3).blk t).view.emb (ix2 p 0 : S16x1.Idx)) = _
  rw [he]
  exact v7_apply m c s z hz

/-- The embedding column's block at (n, p, 0) is emb[n + 1, s]. -/
theorem peBlk_apply (c : Dev nD) (t : Fin cfg0.N) (n : Fin 199) (p : Fin 16) (s : Fin 64) (n' : Fin 200) (hn : n'.val = n.val + 1)
    (hs : s.val = win0_5.index t (1 : Fin 3) * 16 + p.val) :
    peBlk m c t (ix3 n p 0) = embed m c (ix2 n' s) := by
  obtain ⟨f0, f1, f2, g0, g1, g2, h0, h1, i0, i1, i2, j0, j1, k0, k1, k2⟩ := idx_facts t
  have he : ((cfg0.win 4).blk t).view.emb (ix3 n p 0 : S199x16x1.Idx) = (ix3 n s 0 : S199x64x1.Idx) := by
    funext a; apply Fin.ext
    match a with
    | ⟨0, _⟩ => show win0_4.index t (0 : Fin 3) * 199 + 1 * n.val = n.val; omega
    | ⟨1, _⟩ => show win0_4.index t (1 : Fin 3) * 16 + 1 * p.val = s.val; omega
    | ⟨2, _⟩ => show win0_4.index t (2 : Fin 3) * 1 + 1 * 0 = 0; omega
  show (V m c main_v3 : S199x64x1.Idx → EReal) (((cfg0.win 4).blk t).view.emb (ix3 n p 0 : S199x16x1.Idx)) = _
  rw [he]
  exact v3_apply m c n s n' hn

/-! ## What a point leaves in the output's staging buffer, entry by entry -/

/-- What the body leaves at point t, over the blocks at their literal shapes. -/
theorem outsAt_eq (c : Dev nD) (t : Fin cfg0.N) :
    outsAt0 m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (tokBlk m c t) (enBlk m c t) (wBlk m c t) (ebBlk m c t) (peBlk m c t) := rfl

/-- Row 0: the dense output with bias and embedding. -/
theorem outsAt_row0 (c : Dev nD) (t : Fin cfg0.N) (p : Fin 16) (q : Fin 512) (z : Fin 200) (hz : z.val = 0) (s : Fin 64) (b : Fin 4096)
    (hs : s.val = win0_5.index t (1 : Fin 3) * 16 + p.val) (hb : b.val = win0_5.index t (2 : Fin 3) * 512 + q.val) :
    (outsAt0 m c t : S200x16x512.Idx → EReal) (ix3 z p q)
      = Cert.PosEmbed.entry (tokens m c) (energies m c) (weights m c) (bias m c) (embed m c) b z s := by
  have hz0 : z = 0 := Fin.ext hz
  subst hz0
  rw [outsAt_eq]
  refine (Pieces.out_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (tokBlk m c t) (enBlk m c t) (wBlk m c t) (ebBlk m c t) (peBlk m c t) p q).trans ?_
  refine (Pay.pay1_apply (wBlk m c t) (enBlk m c t) (ebBlk m c t) p q).trans ?_
  rw [Cert.PosEmbed.entry_zero _ _ _ _ _ b 0 s rfl, ebBlk_apply m c t p s 0 rfl hs]
  refine congrArg (· + (bias m c (ix1 s) + embed m c (ix2 0 s))) ?_
  unfold Cert.PosEmbed.dense
  refine Finset.sum_congr rfl fun k _ => ?_
  rw [wBlk_apply m c t k p s hs, enBlk_apply m c t k q b hb]

/-- Row n + 1: the token plus its embedding row. -/
theorem outsAt_rows (c : Dev nD) (t : Fin cfg0.N) (n : Fin 199) (n' : Fin 200) (hn : n'.val = n.val + 1) (p : Fin 16) (q : Fin 512)
    (s : Fin 64) (b : Fin 4096)
    (hs : s.val = win0_5.index t (1 : Fin 3) * 16 + p.val) (hb : b.val = win0_5.index t (2 : Fin 3) * 512 + q.val) :
    (outsAt0 m c t : S200x16x512.Idx → EReal) (ix3 n' p q)
      = Cert.PosEmbed.entry (tokens m c) (energies m c) (weights m c) (bias m c) (embed m c) b n' s := by
  rw [outsAt_eq]
  refine (Pieces.out_rows (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (tokBlk m c t) (enBlk m c t) (wBlk m c t) (ebBlk m c t) (peBlk m c t) n n' hn p q).trans ?_
  refine (Pay.pay2_apply (tokBlk m c t) (peBlk m c t) n p q).trans ?_
  rw [Cert.PosEmbed.entry_succ _ _ _ _ _ b n' s n hn, tokBlk_apply m c t n p q s b hs hb, peBlk_apply m c t n p s n' hn hs]

/-! ## What a point writes back is its block of the one array -/

theorem flushed_eq (c : Dev nD) (t : Fin cfg0.N) :
    (dats m 0 c).flushed 5 t = ((cfg0.win 5).blk t).view.read (Elt Ideal) (outT m c) := by
  show (cfg0.win 5).cut (grid0.coords t) ((dats m 0 c).after 5 t) = _
  rw [after0_5]
  obtain ⟨f0, f1, f2, -⟩ := idx_facts t
  funext j
  obtain ⟨n', p, q, rfl⟩ : ∃ (n' : Fin 200) (p : Fin 16) (q : Fin 512), j = ix3 n' p q := ⟨j 0, j 1, j 2, eq_ix3 j⟩
  have hp := p.isLt
  have hq := q.isLt
  have he : ((cfg0.win 5).blk t).view.emb (ix3 n' p q : S200x16x512.Idx)
      = (ix3 n' ⟨win0_5.index t (1 : Fin 3) * 16 + p.val, by omega⟩ ⟨win0_5.index t (2 : Fin 3) * 512 + q.val, by omega⟩ : S200x64x4096.Idx) := by
    funext a; apply Fin.ext
    match a with
    | ⟨0, _⟩ => show win0_5.index t (0 : Fin 3) * 200 + 1 * n'.val = n'.val; omega
    | ⟨1, _⟩ => show win0_5.index t (1 : Fin 3) * 16 + 1 * p.val = win0_5.index t (1 : Fin 3) * 16 + p.val; omega
    | ⟨2, _⟩ => show win0_5.index t (2 : Fin 3) * 512 + 1 * q.val = win0_5.index t (2 : Fin 3) * 512 + q.val; omega
  show (outsAt0 m c t : S200x16x512.Idx → EReal) (ix3 n' p q) = outT m c (((cfg0.win 5).blk t).view.emb (ix3 n' p q : S200x16x512.Idx))
  rw [he, outT_apply]
  by_cases h0 : n'.val = 0
  · exact outsAt_row0 m c t p q n' h0 _ _ rfl rfl
  · have hlt := n'.isLt
    exact outsAt_rows m c t ⟨n'.val - 1, by omega⟩ n' (by show n'.val = n'.val - 1 + 1; omega) p q _ _ rfl rfl

/-! ## The blocks cover the array -/

/-- An index is in point t's block iff each coordinate is in the block's range on its axis. -/
theorem mem_blk (t : Fin cfg0.N) (i : S200x64x4096.Idx) :
    i ∈ ((cfg0.win 5).blk t).view.set ↔ ∀ a : Fin 3, win0_5.index t a * S200x16x512.size a ≤ (i a).val ∧ (i a).val < win0_5.index t a * S200x16x512.size a + S200x16x512.size a := by
  show i ∈ ((View.whole main_v10).slice (win0_5.rect t)).set ↔ _
  rw [View.set_slice_whole, Rect.mem_set_unit]
  exact Iff.rfl

theorem cover (i : S200x64x4096.Idx) :
    ∃ t : Fin cfg0.N, (cfg0.win 5).flush t = true ∧ i ∈ ((cfg0.win 5).blk t).view.set := by
  have hi0 : (i 0).val < 200 := (i 0).isLt
  have hi1 : (i 1).val < 64 := (i 1).isLt
  have hi2 : (i 2).val < 4096 := (i 2).isLt
  obtain ⟨t, ht⟩ := idx_onto ⟨(i 1).val / 16, by omega⟩ ⟨(i 2).val / 512, by omega⟩
  have q0 : win0_5.index t (0 : Fin 3) = 0 := congrFun ht 0
  have q1 : win0_5.index t (1 : Fin 3) = (i 1).val / 16 := congrFun ht 1
  have q2 : win0_5.index t (2 : Fin 3) = (i 2).val / 512 := congrFun ht 2
  refine ⟨t, flush0_5 t, ?_⟩
  rw [mem_blk]
  intro a
  match a with
  | ⟨0, _⟩ => show win0_5.index t (0 : Fin 3) * 200 ≤ (i 0).val ∧ (i 0).val < win0_5.index t (0 : Fin 3) * 200 + 200; omega
  | ⟨1, _⟩ => show win0_5.index t (1 : Fin 3) * 16 ≤ (i 1).val ∧ (i 1).val < win0_5.index t (1 : Fin 3) * 16 + 16; omega
  | ⟨2, _⟩ => show win0_5.index t (2 : Fin 3) * 512 ≤ (i 2).val ∧ (i 2).val < win0_5.index t (2 : Fin 3) * 512 + 512; omega

/-- The output array after the run. -/
theorem final (c : Dev nD) : (dats m 0 c).arrAt 5 cfg0.N = outT m c :=
  (dats m 0 c).arrAt_eq_of_cover 5 (outT m c) (fun t _ => flushed_eq m c t) cover

end Cert.KernelIdeal.Blocks

end
-- ==== Proof.KernelValue.lean ====
/-
  The idealized kernel's run, read back: the result is the encoded array.

  After the region the output array [200, 64, 4096] holds, at (n, s, b), the encoded entry of batch row b, position n,
  feature s. The one host operation after the region transposes it to [4096, 200, 64], whose entry (b, n, s) is that
  same entry: the encoded array. No host operation writes an argument, so the arguments end as launched.
-/
import proofs.«105355_g44925357916747_cont_8to1_c_751_13_alg».proof.Proof.Gen.KernelIdeal.Frame
import proofs.«105355_g44925357916747_cont_8to1_c_751_13_alg».proof.Proof.Spec
import proofs.«105355_g44925357916747_cont_8to1_c_751_13_alg».proof.Proof.KernelBlocks
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Arrays
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The program's result after the host operation that follows the region: the output array, transposed. -/
theorem tail_eq (c : Dev nD) :
    (Pipeline.afterTail₀ cfgs (dats m) 0 (V0 m) [hostOps1] c main_v11 : S4096x200x64.Idx → EReal)
      = transpose S4096x200x64 [2, 0, 1] (Blocks.outT m c) transposes_S200x64x4096_S4096x200x64_2_0_1 := by
  unfold Pipeline.afterTail₀
  show StableHlo.after hostOps1 _ (Proc.devRef .tc main_v11) = _
  after_results
  refine congrArg (fun x : S200x64x4096.Idx → EReal => transpose S4096x200x64 [2, 0, 1] x transposes_S200x64x4096_S4096x200x64_2_0_1) ?_
  exact (Pipeline.withArrays_arr spec0 launch0.win.arr_inj c _ _ 5).trans (Blocks.final m c)

/-- The transposed output array is the encoded array: entry (b, n, s) of the one is entry (n, s, b) of the other. -/
theorem transposed_eq (c : Dev nD) :
    transpose S4096x200x64 [2, 0, 1] (Blocks.outT m c) transposes_S200x64x4096_S4096x200x64_2_0_1
      = Cert.PosEmbed.encoded (tokens m c) (energies m c) (weights m c) (bias m c) (embed m c) := by
  funext j
  obtain ⟨b, n, s, rfl⟩ : ∃ (b : Fin 4096) (n : Fin 200) (s : Fin 64), j = ix3 b n s := ⟨j 0, j 1, j 2, eq_ix3 j⟩
  refine (transpose_apply [2, 0, 1] (Blocks.outT m c) transposes_S200x64x4096_S4096x200x64_2_0_1 (ix3 b n s) (ix3 n s b) fun a => by
      match a with
      | ⟨0, _⟩ => rfl
      | ⟨1, _⟩ => rfl
      | ⟨2, _⟩ => rfl).trans ?_
  rfl

/-- Every weakly fair execution of the idealized kernel's program terminates with the result at the encoded array of
    the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v11)
        = Cert.PosEmbed.encoded (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v11 (Pipeline.mem_restRefs_of main_v11 (by decide) (by decide))).trans ((tail_eq m c).trans (transposed_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibGraphRead.lean ====
/-
  Reading the host's accumulating scatter and its row gather at ONE index, over the extended reals.

  A segment sum prints as a scatter-add whose indices are an [n × 1] column: update `e` (a scalar, or row `e` of an
  [n × C] array) is added at the row its index word names, read signed and NOT clamped, and is dropped when that row is
  outside the operand. So entry `v` of the result is the operand's entry plus the sum of the updates whose word is `v`.
  A row gather `X[idx]` reads, for position `e`, the row its word names, read signed and clamped into [0, N − 1].
  jnp first wraps a negative word by adding N; a word that lands on `v` is not negative, so wrap and clamp return `v`.
-/
import Idealize.ShloMosaic.PureOps.Ideal
import Idealize.ShloMosaic.Lib.ValueIdx
import Idealize.ShloMosaic.Lib.StableHlo.Predicate

noncomputable section

namespace Cert.GcnLib

open Idealize.ShloMosaic Idealize.ShloMosaic.ValueIdx

/-- The updates that land on row `v`: their index word, read signed, is `v`. -/
def landing {N n : ℕ} (idx : IVec ⟨2, ![n, 1]⟩ 32) (v : Fin N) : Finset (Fin n) :=
  Finset.univ.filter fun e : Fin n => (idx (ix2 e 0)).toInt = (v.val : Int)

/-- An update lands on operand index `i` exactly when, on every axis, its start plus its window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have h1 := congrFun (Option.some.inj heq) a
      have h2 := congrArg Fin.val h1
      simp only at h2
      have := (h a).1
      omega
    · intro hall
      congr 1
      funext a
      apply Fin.ext
      simp only
      rw [hall a]
      simp
  · next h =>
    constructor
    · intro heq; cases heq
    · intro hall
      exfalso
      apply h
      intro a
      rw [hall a]
      exact ⟨Int.natCast_nonneg _, by exact_mod_cast (i a).isLt⟩

/-- A scatter-add into a rank-1 operand through a column of indices, read at entry `v`. -/
theorem scatterAdd_vec_apply {N n : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ 32) (u : (⟨1, ![n]⟩ : Shape).Idx → EReal) (v : Fin N) :
    Ideal.hostScatterAdd d x idx u (ix1 v) = x (ix1 v) + ∑ e ∈ landing idx v, u (ix1 e) := by
  have hm : (0 : Fin 1) ∈ d.scatterDimsToOperandDims := by rw [hsd]; exact List.mem_singleton.mpr rfl
  have hk : (0 : Fin 1) ∉ d.sKept := by
    simp [ScatterDims.sKept, Shape.kept, hiw]
  have hstart : ∀ j : (⟨1, ![n]⟩ : Shape).Idx, d.start j idx 0 = (idx (ix2 (j 0) 0)).toInt := by
    intro j
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hwin : ∀ j : (⟨1, ![n]⟩ : Shape).Idx, d.window j 0 = 0 := by
    intro j; unfold ScatterDims.window; rw [dif_neg hk]
  have hiff : ∀ j : (⟨1, ![n]⟩ : Shape).Idx, d.resultIdx? j idx = some (ix1 v) ↔ (idx (ix2 (j 0) 0)).toInt = (v.val : Int) := by
    intro j
    rw [resultIdx?_eq_some_iff]
    constructor
    · intro h
      have h0 : d.start j idx 0 + (d.window j 0 : Int) = (v.val : Int) := h 0
      rw [hstart, hwin] at h0
      simpa using h0
    · intro h a
      have ha0 : a = 0 := Subsingleton.elim _ _
      subst ha0
      show d.start j idx 0 + (d.window j 0 : Int) = (v.val : Int)
      rw [hstart, hwin, h]
      simp
  show x (ix1 v) + ∑ j ∈ Finset.univ.filter (fun j => d.resultIdx? j idx = some (ix1 v)), u j = _
  congr 1
  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg u (eq_ix1 j)

/-- A scatter-add of ROWS into an [N × C] operand through a column of indices, read at entry `(v, j)`. -/
theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j) = x (ix2 v j) + ∑ e ∈ landing idx v, u (ix2 e j) := by
  have hm : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by simp [ScatterDims.sKept, Shape.kept, hiw]
  have hk1 : (1 : Fin 2) ∈ d.sKept := by simp [ScatterDims.sKept, Shape.kept, hiw]
  have hstart0 : ∀ t : (⟨2, ![n, C]⟩ : Shape).Idx, d.start t idx 0 = (idx (ix2 (t 0) 0)).toInt := by
    intro t
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have hX : ∀ X : Fin 2, X ∈ d.uScatter → (t X).val = (t 0).val := by
        intro X hX
        have h1 : X ∉ d.updateWindowDims := by simpa [ScatterDims.uScatter, Shape.kept] using hX
        rw [huw] at h1
        match X, h1 with
        | ⟨0, _⟩, _ => rfl
        | ⟨1, _⟩, h => exact absurd (List.mem_singleton.mpr rfl) h
      exact hX _ (List.getElem_mem _)
    | ⟨1, _⟩ =>
      unfold ScatterDims.siIdx
      rw [dif_pos (by rw [hiv])]
      apply Fin.ext
      show List.idxOf (0 : Fin 2) d.scatterDimsToOperandDims = 0
      rw [hsd]; simp
  have hstart1 : ∀ t : (⟨2, ![n, C]⟩ : Shape).Idx, d.start t idx 1 = 0 := by
    intro t; unfold ScatterDims.start; rw [dif_neg hm1]
  have hwin0 : ∀ t : (⟨2, ![n, C]⟩ : Shape).Idx, d.window t 0 = 0 := by
    intro t; unfold ScatterDims.window; rw [dif_neg hk0]
  have hl : ∀ (l : List (Fin 2)) (_ : l = [1]) (k : ℕ) (hk : k < l.length), l[k] = 1 := by
    intro l hl k hk; subst hl
    simp only [List.length_singleton, Nat.lt_one_iff] at hk
    subst hk; rfl
  have hwin1 : ∀ t : (⟨2, ![n, C]⟩ : Shape).Idx, d.window t 1 = (t 1).val := by
    intro t; unfold ScatterDims.window; rw [dif_pos hk1]
    rw [hl d.updateWindowDims huw]
  have hiff : ∀ t : (⟨2, ![n, C]⟩ : Shape).Idx,
      d.resultIdx? t idx = some (ix2 v j) ↔ (idx (ix2 (t 0) 0)).toInt = (v.val : Int) ∧ t 1 = j := by
    intro t
    rw [resultIdx?_eq_some_iff]
    constructor
    · intro h
      have h0 : d.start t idx 0 + (d.window t 0 : Int) = (v.val : Int) := h 0
      have h1 : d.start t idx 1 + (d.window t 1 : Int) = (j.val : Int) := h 1
      rw [hstart0, hwin0] at h0
      rw [hstart1, hwin1] at h1
      refine ⟨by simpa using h0, Fin.ext ?_⟩
      have h2 : ((t 1).val : Int) = (j.val : Int) := by simpa using h1
      exact_mod_cast h2
    · rintro ⟨h0, h1⟩ a
      match a with
      | ⟨0, _⟩ =>
        show d.start t idx 0 + (d.window t 0 : Int) = (v.val : Int)
        rw [hstart0, hwin0, h0]; simp
      | ⟨1, _⟩ =>
        show d.start t idx 1 + (d.window t 1 : Int) = (j.val : Int)
        rw [hstart1, hwin1, h1]; simp
  show x (ix2 v j) + ∑ t ∈ Finset.univ.filter (fun t => d.resultIdx? t idx = some (ix2 v j)), u t = _
  congr 1
  refine Finset.sum_bij' (fun t _ => t 0) (fun e _ => ix2 e j) ?_ ?_ ?_ ?_ ?_
  · intro t ht
    exact Finset.mem_filter.2 ⟨Finset.mem_univ _, ((hiff t).1 (Finset.mem_filter.1 ht).2).1⟩
  · intro e he
    exact Finset.mem_filter.2 ⟨Finset.mem_univ _, (hiff (ix2 e j)).2 ⟨(Finset.mem_filter.1 he).2, rfl⟩⟩
  · intro t ht
    have h1 := ((hiff t).1 (Finset.mem_filter.1 ht).2).2
    show ix2 (t 0) j = t
    rw [← h1]; exact (eq_ix2 t).symm
  · intro e _
    rfl
  · intro t ht
    have h1 := ((hiff t).1 (Finset.mem_filter.1 ht).2).2
    show u t = u (ix2 (t 0) j)
    rw [← h1]; exact congrArg u (eq_ix2 t)

/-- The row a gather reads for index word `w`: read signed, clamped into [0, N − 1]. -/
def clampRow (N : ℕ) (hN : 0 < N) (w : BitVec 32) : Fin N := ⟨min w.toInt.toNat (N - 1), by omega⟩

/-- A gather of entries of a rank-1 operand through a column of indices, read at position `e`
    (Lib/StableHlo/Predicate.lean `gather_take` with the row named). -/
theorem gather_vec_apply {α : Type} {N n : ℕ} (hN : 0 < N) (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ 32) (e : Fin n) :
    Host.gather d x idx (ix1 e) = x (ix1 (clampRow N hN (idx (ix2 e 0)))) := by
  have h1 : (ix1 e : (⟨1, ![n]⟩ : Shape).Idx) = Shape.Idx.ofFin e := by
    funext a; match a with | ⟨0, _⟩ => rfl
  have h2 : (ix2 e 0 : (⟨2, ![n, 1]⟩ : Shape).Idx) = StableHlo.Predicate.ixP e := by
    funext a; match a with | ⟨0, _⟩ => rfl | ⟨1, _⟩ => rfl
  rw [h1, h2, StableHlo.Predicate.gather_take d hcoll hob hsim hivd x idx e hN]
  congr 1
  funext a; match a with | ⟨0, _⟩ => rfl

/-- A gather of ROWS of an [N × C] operand through a column of indices, read at `(e, j)`. -/
theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  unfold Host.gather
  congr 1
  funext a
  apply Fin.ext
  have hb : ∀ a, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ix2 e 0)).toInt.toNat (N - 1)
    rw [GatherDims.batchCoord_eq_zero _ _ _ (hb _), GatherDims.offCoord_eq_zero _ _ _ hk]
    simp only [Nat.add_zero]
    unfold GatherDims.start
    rw [dif_pos hm]
    have hsi : d.siIdx (ix2 e j) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        have hX : ∀ X : Fin 2, X ∈ d.batchDims → ((ix2 e j : (⟨2, ![n, C]⟩ : Shape).Idx) X).val = e.val := by
          intro X hX
          have h1 : X ∉ d.offsetDims := by simpa [GatherDims.batchDims, Shape.kept] using hX
          rw [hoff] at h1
          match X, h1 with
          | ⟨0, _⟩, _ => rfl
          | ⟨1, _⟩, h => exact absurd (List.mem_singleton.mpr rfl) h
        exact hX _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
    show min (idx (ix2 e 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb _)]
    unfold GatherDims.start
    rw [dif_neg hm]
    unfold GatherDims.offCoord
    rw [dif_pos hk]
    simp only [Nat.zero_add, Nat.add_zero]
    have hl : ∀ (l : List (Fin 2)) (_ : l = [1]) (k : ℕ) (hk : k < l.length), l[k] = 1 := by
      intro l hl k hk; subst hl
      simp only [List.length_singleton, Nat.lt_one_iff] at hk
      subst hk; rfl
    rw [hl d.offsetDims hoff]

/-- jnp's wrap of a negative index word: `select (w < 0) (w + N) w`, on one word. -/
def wrapWord (N : BitVec 32) (w : BitVec 32) : BitVec 32 :=
  Scalar.select (Scalar.cmpi .slt w 0#32) (IntOp.addi w N) w

/-- A word that lands on row `v` (read signed it is `v`, and `v < N`) is left alone by the wrap and by the clamp. -/
theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by
    simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.RefValue.lean ====
/-
  The reference program's run, read back.

  The reference computes  concat([energies · W + b, tokens], axis 1) + emb  as a straight line of thirty-three host
  operations: ten of its main function and twenty-three of the position look-up it calls (an index wrap, a row gather
  and a range mask), one of which is the select of the inner function that look-up calls in turn. The line is listed with the
  calls unfolded at their buffers; every weakly fair execution ends with each buffer at the fold of the operations over
  the launch contents. The fold at the result is then read entry by entry: at batch row b, position n and feature s it
  is the dense output plus bias plus embedding row 0 when n = 0, and token n − 1 plus embedding row n otherwise.
-/
import proofs.«105355_g44925357916747_cont_8to1_c_751_13_alg».proof.Defs
import proofs.«105355_g44925357916747_cont_8to1_c_751_13_alg».proof.Proof.Gen.ReferenceIdeal
import proofs.«105355_g44925357916747_cont_8to1_c_751_13_alg».proof.Proof.Spec
import proofs.«105355_g44925357916747_cont_8to1_c_751_13_alg».proof.Proof.LibGraphRead
import proofs.«105355_g44925357916747_cont_8to1_c_751_13_alg».proof.Proof.LibDotRowsCols
import Idealize.ShloMosaic.Lib.StableHlo.Run
import Idealize.ShloMosaic.Lib.StableHlo.Predicate
import Idealize.ShloMosaic.Lib.Pipeline.Value

noncomputable section
namespace Cert.ReferenceIdeal.RefValue
open Cert.ReferenceIdeal Cert.ReferenceIdeal.Gen Idealize.ShloMosaic Idealize.ShloMosaic.TcCoe Idealize.SL.Sem Idealize.ShloMosaic.StableHlo

section Line
variable {F : FTy → Type} [FloatOps F]

/-- The thirty-three operations in order, the two calls unfolded over their buffer records: seven of the main
    function (the product, the bias laid along the rows, their sum, the unit position axis, the concatenation, the
    positions 0 … 199), the look-up's twenty-three (the wrap of a negative position, whose select is the inner
    function's one operation; the column of wrapped positions; the range mask 0 ≤ · ≤ 199 folded over its unit axis;
    the row gather; the mask laid along the features; the fill constant; the select), then the main function's last
    three (the looked-up rows laid along the batch, and the final sum). -/
abbrev ops : List (HloOp τ sig (Elt F)) :=
  [ binary main_arg1 main_arg2 main_v0 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S4096x64 ![0, 1] bcast_S1x64_S4096x64_0_1 : (⟨S1x64, .f32⟩ : BufTy).Contents (Elt F) → (⟨S4096x64, .f32⟩ : BufTy).Contents (Elt F)),
    binary main_v0 main_v2 main_v3 (addf : (⟨S4096x64, .f32⟩ : BufTy).Contents (Elt F) → (⟨S4096x64, .f32⟩ : BufTy).Contents (Elt F) → (⟨S4096x64, .f32⟩ : BufTy).Contents (Elt F)),
    unary main_v3 main_v4 (broadcastInDim S4096x1x64 ![0, 2] bcast_S4096x64_S4096x1x64_0_2 : (⟨S4096x64, .f32⟩ : BufTy).Contents (Elt F) → (⟨S4096x1x64, .f32⟩ : BufTy).Contents (Elt F)),
    binary main_v4 main_arg0 main_v5 ((fun a b => concatenate S4096x200x64 1 [⟨S4096x1x64, a⟩, ⟨S4096x199x64, b⟩] concatenates_S4096x1x64_S4096x199x64_S4096x200x64_d1) : (⟨S4096x1x64, .f32⟩ : BufTy).Contents (Elt F) → (⟨S4096x199x64, .f32⟩ : BufTy).Contents (Elt F) → (⟨S4096x200x64, .f32⟩ : BufTy).Contents (Elt F)),
    nullary main_v6 (iotaInDim S200 32 0),
    TRef.nullary main_call0.c (constantI S_ 32 0#32),
    TRef.unary main_call0.c main_call0.v0 (broadcastInDim S200 ![] bcast_S_S200),
    TRef.binary (.of main_v6) main_call0.v0 main_call0.v1 (cmpi .slt),
    TRef.nullary main_call0.c_0 (constantI S_ 32 200#32),
    TRef.unary main_call0.c_0 main_call0.v2 (broadcastInDim S200 ![] bcast_S_S200),
    TRef.binary (.of main_v6) main_call0.v2 main_call0.v3 addi,
    TRef.ternary main_call0.v1 main_call0.v3 (.of main_v6) main_call0.call0.v0 select,
    TRef.unary main_call0.call0.v0 main_call0.v5 (broadcastInDim S200x1 ![0] bcast_S200_S200x1_0),
    TRef.nullary main_call0.c_1 (constantI S1 32 199#32),
    TRef.nullary main_call0.c_2 (constantI S_ 32 0#32),
    TRef.unary main_call0.c_2 main_call0.v6 (broadcastInDim S200x1 ![] bcast_S_S200x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S200x1 ![0, 1] bcast_S1x1_S200x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S200x1_S200_d1 h_S_),
    TRef.binary (.of main_arg4) main_call0.v5 main_call0.v13 (fun x i => Host.gather gather_S200x64_S200x1_S200x64_1_0_n_n_0_1_164 x i),
    TRef.unary main_call0.v12 main_call0.v14 (broadcastInDim S200x64 ![0] bcast_S200_S200x64_0),
    TRef.nullary main_call0.cst (constant S_ .f32 0x7FC00000#32),
    TRef.unary main_call0.cst main_call0.v15 (broadcastInDim S200x64 ![] bcast_S_S200x64),
    TRef.ternary main_call0.v14 main_call0.v13 main_call0.v15 main_call0.v16 select,
    unary main_v7 main_v8 (broadcastInDim S1x200x64 ![1, 2] bcast_S200x64_S1x200x64_1_2 : (⟨S200x64, .f32⟩ : BufTy).Contents (Elt F) → (⟨S1x200x64, .f32⟩ : BufTy).Contents (Elt F)),
    unary main_v8 main_v9 (broadcastInDim S4096x200x64 ![0, 1, 2] bcast_S1x200x64_S4096x200x64_0_1_2 : (⟨S1x200x64, .f32⟩ : BufTy).Contents (Elt F) → (⟨S4096x200x64, .f32⟩ : BufTy).Contents (Elt F)),
    binary main_v5 main_v9 main_v10 (addf : (⟨S4096x200x64, .f32⟩ : BufTy).Contents (Elt F) → (⟨S4096x200x64, .f32⟩ : BufTy).Contents (Elt F) → (⟨S4096x200x64, .f32⟩ : BufTy).Contents (Elt F)) ]

-- thirty-three binds re-associated: the rewrite under the chain recurses once per statement
set_option maxRecDepth 1024 in
/-- The main function is that straight line: the two called functions unfolded at their calls and the records at
    their fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., unary_bufs_sub .., binary_bufs_sub ..,
    nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- From any memory with zero counters every weakly fair execution of the main function terminates, and every final
    state has each buffer at the fold of the operations over the launch contents. -/
theorem run_line (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The line's result as one term, and that term entry by entry -/

section Value

open Idealize.ShloMosaic.ValueIdx Cert.GcnLib Cert.Lib.DotRowsCols
open scoped BigOperators

/-- The positions 0 … 199 as 32-bit words. -/
def positions : IVec S200 32 := iotaInDim S200 32 0

/-- Each position after the wrap of a negative word: p + 200 where p < 0, else p. -/
def wrapped : IVec S200 32 :=
  select (cmpi .slt positions (broadcastInDim S200 ![] bcast_S_S200 (constantI S_ 32 0#32)))
    (addi positions (broadcastInDim S200 ![] bcast_S_S200 (constantI S_ 32 200#32))) positions

/-- The wrapped positions as a [200, 1] column: the gather's start indices. -/
def column : IVec S200x1 32 := broadcastInDim S200x1 ![0] bcast_S200_S200x1_0 wrapped

/-- The range test 0 ≤ · ≤ 199 on the column. -/
def inRangeCol : IVec S200x1 1 :=
  andi (cmpi .sge column (broadcastInDim S200x1 ![] bcast_S_S200x1 (constantI S_ 32 0#32)))
    (cmpi .sle column (broadcastInDim S200x1 ![0, 1] bcast_S1x1_S200x1_0_1
      (broadcastInDim S1x1 ![1] bcast_S1_S1x1_1 (constantI S1 32 199#32))))

/-- The range test folded by "and" over the column's unit axis, from true. -/
def inRange : IVec S200 1 := Host.reduce IntOp.andi inRangeCol (constantI S_ 1 1#1) reducesTo_S200x1_S200_d1 h_S_

/-- The looked-up rows: the table's row at each wrapped position where the position passes the range test, the
    fill constant elsewhere. -/
def taken (emb : FVec Ideal S200x64 .f32) : FVec Ideal S200x64 .f32 :=
  select (broadcastInDim S200x64 ![0] bcast_S200_S200x64_0 inRange)
    (Host.gather gather_S200x64_S200x1_S200x64_1_0_n_n_0_1_164 emb column)
    (broadcastInDim S200x64 ![] bcast_S_S200x64 (constant S_ .f32 0x7FC00000#32))

/-- The dense layer with its bias: energies · W plus the bias laid along the rows. -/
def denseBias (en : FVec Ideal S4096x64 .f32) (W : FVec Ideal S64x64 .f32) (bias : FVec Ideal S64 .f32) :
    FVec Ideal S4096x64 .f32 :=
  addf (Host.dotGeneral dot_S4096x64_S64x64_S4096x64_1_0_0_1_n_n none en W)
    (broadcastInDim S4096x64 ![0, 1] bcast_S1x64_S4096x64_0_1 (broadcastInDim S1x64 ![1] bcast_S64_S1x64_1 bias))

/-- The reference's result as one term of its five arguments: the dense rows as position 0 in front of the tokens,
    plus the looked-up rows laid along the batch. -/
def composed (tok : FVec Ideal S4096x199x64 .f32) (en : FVec Ideal S4096x64 .f32) (W : FVec Ideal S64x64 .f32)
    (bias : FVec Ideal S64 .f32) (emb : FVec Ideal S200x64 .f32) : FVec Ideal S4096x200x64 .f32 :=
  addf
    (concatenate S4096x200x64 1
      [⟨S4096x1x64, broadcastInDim S4096x1x64 ![0, 2] bcast_S4096x64_S4096x1x64_0_2 (denseBias en W bias)⟩,
       ⟨S4096x199x64, tok⟩] concatenates_S4096x1x64_S4096x199x64_S4096x200x64_d1)
    (broadcastInDim S4096x200x64 ![0, 1, 2] bcast_S1x200x64_S4096x200x64_0_1_2
      (broadcastInDim S1x200x64 ![1, 2] bcast_S200x64_S1x200x64_1_2 (taken emb)))

attribute [local irreducible] Host.reduce Host.gather concatenate in
set_option maxRecDepth 8192 in
set_option maxHeartbeats 400000 in
/-- The fold at the result buffer is the composed term: the fold unrolled, each operation's result decides whether
    the buffer read is the one it writes, and the typed references' transports are the identity at these literal
    references. The gather, the reduction and the concatenation are kept folded meanwhile: the equation never
    looks inside them. -/
theorem fold_result (V : Valuation τ sig (Elt Ideal)) :
    after ops V (main_v10 : DevRef τ sig)
      = composed (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

set_option maxRecDepth 8192 in
theorem fold_arg0 (V : Valuation τ sig (Elt Ideal)) : after ops V (main_arg0 : DevRef τ sig) = V (main_arg0 : DevRef τ sig) := by
  simp only [after_cons, after_nil]
  rfl
set_option maxRecDepth 8192 in
theorem fold_arg1 (V : Valuation τ sig (Elt Ideal)) : after ops V (main_arg1 : DevRef τ sig) = V (main_arg1 : DevRef τ sig) := by
  simp only [after_cons, after_nil]
  rfl
set_option maxRecDepth 8192 in
theorem fold_arg2 (V : Valuation τ sig (Elt Ideal)) : after ops V (main_arg2 : DevRef τ sig) = V (main_arg2 : DevRef τ sig) := by
  simp only [after_cons, after_nil]
  rfl
set_option maxRecDepth 8192 in
theorem fold_arg3 (V : Valuation τ sig (Elt Ideal)) : after ops V (main_arg3 : DevRef τ sig) = V (main_arg3 : DevRef τ sig) := by
  simp only [after_cons, after_nil]
  rfl
set_option maxRecDepth 8192 in
theorem fold_arg4 (V : Valuation τ sig (Elt Ideal)) : after ops V (main_arg4 : DevRef τ sig) = V (main_arg4 : DevRef τ sig) := by
  simp only [after_cons, after_nil]
  rfl

/-! ### The position look-up -/

/-- Position n's wrapped word is the wrap of the word of n. -/
theorem wrapped_apply (n : Fin 200) : wrapped (ix1 n) = wrapWord (BitVec.ofNat 32 200) (BitVec.ofNat 32 n.val) := rfl

/-- A word below 2³¹ is not negative, so the wrap leaves it alone. -/
theorem wrapWord_small (N : BitVec 32) (n : ℕ) (hn : n < 2 ^ 31) : wrapWord N (BitVec.ofNat 32 n) = BitVec.ofNat 32 n := by
  have hslt : (BitVec.ofNat 32 n).slt 0#32 = false := by
    simp [BitVec.slt, StableHlo.Predicate.toInt_ofNat_small n hn]
  unfold wrapWord Scalar.cmpi IntOp.cmpi
  simp only [hslt]
  exact select_zero _ _

/-- The column at row n is the wrap of the word of n … -/
theorem column_eq_wrap (n : Fin 200) (z : Fin 1) :
    column (ix2 n z) = wrapWord (BitVec.ofNat 32 200) (BitVec.ofNat 32 n.val) :=
  (broadcastInDim_apply _ bcast_S200_S200x1_0 wrapped (ix2 n z) (ix1 n) (fun a => match a with | ⟨0, _⟩ => rfl)).trans
    (wrapped_apply n)

/-- … which is the word of n. -/
theorem column_apply (n : Fin 200) (z : Fin 1) : column (ix2 n z) = BitVec.ofNat 32 n.val :=
  (column_eq_wrap n z).trans (wrapWord_small _ n.val (by have := n.isLt; omega))

/-- Every row of the column passes the range test: the word of n < 200, read signed, is n, and 0 ≤ n ≤ 199. -/
theorem inRangeCol_apply (i : S200x1.Idx) : inRangeCol i = 1#1 := by
  obtain ⟨n, z, rfl⟩ : ∃ (n : Fin 200) (z : Fin 1), i = ix2 n z := ⟨i 0, i 1, eq_ix2 i⟩
  show IntOp.andi (IntOp.cmpi .sge (column (ix2 n z)) 0#32) (IntOp.cmpi .sle (column (ix2 n z)) 199#32) = 1#1
  rw [column_apply]
  have hlt : n.val < 200 := n.isLt
  have hn : (BitVec.ofNat 32 n.val).toNat = n.val := by
    rw [BitVec.toNat_ofNat]; exact Nat.mod_eq_of_lt (by omega)
  have h0 : IntOp.cmpi .sge (BitVec.ofNat 32 n.val) 0#32 = 1#1 :=
    (StableHlo.Predicate.sge_iff_toNat (by rw [hn]; omega) (by decide)).2 (by simp)
  have h1 : IntOp.cmpi .sle (BitVec.ofNat 32 n.val) 199#32 = 1#1 :=
    (StableHlo.Predicate.sle_iff_toNat (by rw [hn]; omega) (by decide)).2 (by rw [hn]; show n.val ≤ 199; omega)
  rw [h0, h1]
  rfl

/-- A left fold by "and" from true over words that are all true is true. -/
theorem foldl_andi_one {ι : Type} (f : ι → BitVec 1) (hf : ∀ i, f i = 1#1) :
    ∀ l : List ι, l.foldl (fun r i => IntOp.andi r (f i)) 1#1 = 1#1
  | [] => rfl
  | a :: l => by
    have e : IntOp.andi 1#1 (f a) = 1#1 := by rw [hf a]; rfl
    rw [List.foldl_cons, e]
    exact foldl_andi_one f hf l

/-- So every position passes the folded test. -/
theorem inRange_apply (j : S200.Idx) : inRange j = 1#1 := by
  unfold inRange
  rw [Host.reduce_eq_foldl]
  exact foldl_andi_one inRangeCol inRangeCol_apply _

/-- The looked-up rows are the table's own rows: row n passes the range test, and its start index, the word of n,
    names row n. -/
theorem taken_apply (emb : FVec Ideal S200x64 .f32) (n : Fin 200) (s : Fin 64) : taken emb (ix2 n s) = emb (ix2 n s) := by
  have hm : broadcastInDim S200x64 ![0] bcast_S200_S200x64_0 inRange (ix2 n s) = 1#1 :=
    (broadcastInDim_apply _ bcast_S200_S200x64_0 inRange (ix2 n s) (ix1 n) (fun a => match a with | ⟨0, _⟩ => rfl)).trans
      (inRange_apply _)
  have hg : Host.gather gather_S200x64_S200x1_S200x64_1_0_n_n_0_1_164 emb column (ix2 n s) = emb (ix2 n s) := by
    rw [gather_rows_apply (N := 200) (by decide) gather_S200x64_S200x1_S200x64_1_0_n_n_0_1_164 rfl rfl rfl rfl rfl rfl rfl
      emb column n s, column_eq_wrap,
      clampRow_wrapWord_of_lands (by decide) (by decide) _ n
        (StableHlo.Predicate.toInt_ofNat_small n.val (by have := n.isLt; omega))]
  unfold taken
  rw [select_apply, hm, select_one, hg]

/-! ### The dense layer -/

/-- The printed product's dimension numbers are those of a rows-by-columns product. -/
theorem dot_rowsCols : RowsCols dot_S4096x64_S64x64_S4096x64_1_0_0_1_n_n := ⟨rfl, rfl, rfl, rfl, rfl, rfl⟩

/-- The dense layer with its bias at (b, s): the specification's dense output plus the bias at s. -/
theorem denseBias_apply (en : FVec Ideal S4096x64 .f32) (W : FVec Ideal S64x64 .f32) (bias : FVec Ideal S64 .f32)
    (b : Fin 4096) (s : Fin 64) :
    denseBias en W bias (ix2 b s) = Cert.PosEmbed.dense en W b s + bias (ix1 s) := by
  have hb : broadcastInDim S4096x64 ![0, 1] bcast_S1x64_S4096x64_0_1 (broadcastInDim S1x64 ![1] bcast_S64_S1x64_1 bias) (ix2 b s)
      = bias (ix1 s) :=
    (broadcastInDim_apply _ bcast_S1x64_S4096x64_0_1 _ (ix2 b s) (ix2 (0 : Fin 1) s)
        (fun a => match a with | ⟨0, _⟩ => rfl | ⟨1, _⟩ => rfl)).trans
      (broadcastInDim_apply _ bcast_S64_S1x64_1 bias (ix2 (0 : Fin 1) s) (ix1 s) (fun a => match a with | ⟨0, _⟩ => rfl))
  unfold denseBias
  rw [addf_apply, hb, dot_rowsCols.dotGeneral_apply none en W (ix2 b s)]
  unfold Cert.PosEmbed.dense
  congr 1
  exact Finset.sum_congr rfl fun q _ => mul_comm _ _

/-! ### The whole term at an entry -/

/-- The composed term at (b, n, s) is the specification's entry. -/
theorem composed_apply (tok : FVec Ideal S4096x199x64 .f32) (en : FVec Ideal S4096x64 .f32) (W : FVec Ideal S64x64 .f32)
    (bias : FVec Ideal S64 .f32) (emb : FVec Ideal S200x64 .f32) (b : Fin 4096) (n : Fin 200) (s : Fin 64) :
    composed tok en W bias emb (ix3 b n s) = Cert.PosEmbed.entry tok en W bias emb b n s := by
  -- the looked-up rows laid along the batch read row n of the table
  have hY : broadcastInDim S4096x200x64 ![0, 1, 2] bcast_S1x200x64_S4096x200x64_0_1_2
      (broadcastInDim S1x200x64 ![1, 2] bcast_S200x64_S1x200x64_1_2 (taken emb)) (ix3 b n s) = emb (ix2 n s) :=
    ((broadcastInDim_apply _ bcast_S1x200x64_S4096x200x64_0_1_2 _ (ix3 b n s) (ix3 (0 : Fin 1) n s)
        (fun a => match a with | ⟨0, _⟩ => rfl | ⟨1, _⟩ => rfl | ⟨2, _⟩ => rfl)).trans
      (broadcastInDim_apply _ bcast_S200x64_S1x200x64_1_2 (taken emb) (ix3 (0 : Fin 1) n s) (ix2 n s)
        (fun a => match a with | ⟨0, _⟩ => rfl | ⟨1, _⟩ => rfl))).trans (taken_apply emb n s)
  unfold composed
  rw [addf_apply, hY]
  by_cases hn : n.val = 0
  · -- position 0: the concatenation reads its first piece, the dense rows
    rw [Cert.PosEmbed.entry_zero tok en W bias emb b n s hn,
      concatenate_pair_apply_left (t := S4096x200x64) (s₁ := S4096x1x64) (s₂ := S4096x199x64) (1 : Fin 3) _ tok
        concatenates_S4096x1x64_S4096x199x64_S4096x200x64_d1 (ix3 b n s) rfl
        (ix3 b (0 : Fin 1) s) (fun a => match a with | ⟨0, _⟩ => rfl | ⟨1, _⟩ => hn.symm | ⟨2, _⟩ => rfl),
      broadcastInDim_apply _ bcast_S4096x64_S4096x1x64_0_2 (denseBias en W bias) (ix3 b (0 : Fin 1) s) (ix2 b s)
        (fun a => match a with | ⟨0, _⟩ => rfl | ⟨1, _⟩ => rfl),
      denseBias_apply, add_assoc]
  · -- a later position n = p + 1: the concatenation reads its second piece, the tokens, at p
    have hp : n.val - 1 < 199 := by have := n.isLt; omega
    rw [Cert.PosEmbed.entry_succ tok en W bias emb b n s ⟨n.val - 1, hp⟩ (by show n.val = n.val - 1 + 1; omega),
      concatenate_pair_apply_right (t := S4096x200x64) (s₁ := S4096x1x64) (s₂ := S4096x199x64) (1 : Fin 3) _ tok
        concatenates_S4096x1x64_S4096x199x64_S4096x200x64_d1 (ix3 b n s) rfl rfl
        (ix3 b ⟨n.val - 1, hp⟩ s)
        (fun a => match a with
          | ⟨0, _⟩ => fun _ => rfl
          | ⟨1, _⟩ => fun h => absurd rfl h
          | ⟨2, _⟩ => fun _ => rfl)
        (by show n.val - 1 + 1 = n.val; omega)]

/-- The composed term is the specification's array. -/
theorem composed_eq (tok : FVec Ideal S4096x199x64 .f32) (en : FVec Ideal S4096x64 .f32) (W : FVec Ideal S64x64 .f32)
    (bias : FVec Ideal S64 .f32) (emb : FVec Ideal S200x64 .f32) :
    composed tok en W bias emb = Cert.PosEmbed.encoded tok en W bias emb := by
  funext j
  obtain ⟨b, n, s, rfl⟩ : ∃ (b : Fin 4096) (n : Fin 200) (s : Fin 64), j = ix3 b n s := ⟨j 0, j 1, j 2, eq_ix3 j⟩
  rw [composed_apply, Cert.PosEmbed.encoded_apply]

end Value

/-- Every weakly fair execution of the idealized reference ends with its result at the specification's array of the
    argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = Cert.PosEmbed.encoded (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v10).trans ((fold_result (launchContents m c)).trans (composed_eq _ _ _ _ _)),
        (h c main_arg0).trans (fold_arg0 _), (h c main_arg1).trans (fold_arg1 _), (h c main_arg2).trans (fold_arg2 _),
        (h c main_arg3).trans (fold_arg3 _), (h c main_arg4).trans (fold_arg4 _)⟩)
    (run_line m ρ)

end Cert.ReferenceIdeal.RefValue
end
-- ==== Proof.lean ====
/-
  The position-embedding encoder: the Pallas kernel against its jnp reference, over the extended reals.

  Both programs compute, for batch row b, position n and feature s,
    position 0   :  ∑ₖ W[k, s] · energies[b, k]  +  b[s]  +  emb[0, s]
    position n ≥ 1 :  tokens[b, n − 1, s]  +  emb[n, s].
  The kernel works on the transposed layout [200, 64, 4096], one block of 16 features by 512 batch rows per grid point,
  adds the bias and emb[0] together before the product's result, and transposes back on the host; the reference adds the
  bias first and the embedding row afterwards, and fetches the embedding rows through a gather at the positions 0..199.
  The two differ by the order of a product's factors and the grouping of a sum of three terms, which are the same
  extended real whatever the inputs: the precondition is never opened.

  The idealization rewrote no operation, so that claim is trivial. The word-level kernel and the idealized kernel end
  with their arguments unchanged by the generated frames; the reference by its run with the result dropped.
-/
import proofs.«105355_g44925357916747_cont_8to1_c_751_13_alg».proof.Defs
import proofs.«105355_g44925357916747_cont_8to1_c_751_13_alg».proof.Proof.Gen.Kernel
import proofs.«105355_g44925357916747_cont_8to1_c_751_13_alg».proof.Proof.Gen.Kernel.Skeleton
import proofs.«105355_g44925357916747_cont_8to1_c_751_13_alg».proof.Proof.Gen.Kernel.Launch
import proofs.«105355_g44925357916747_cont_8to1_c_751_13_alg».proof.Proof.Gen.Kernel.Points
import proofs.«105355_g44925357916747_cont_8to1_c_751_13_alg».proof.Proof.Gen.Kernel.Frame
import proofs.«105355_g44925357916747_cont_8to1_c_751_13_alg».proof.Proof.Gen.KernelIdeal
import proofs.«105355_g44925357916747_cont_8to1_c_751_13_alg».proof.Proof.Gen.KernelIdeal.Skeleton
import proofs.«105355_g44925357916747_cont_8to1_c_751_13_alg».proof.Proof.Gen.KernelIdeal.Launch
import proofs.«105355_g44925357916747_cont_8to1_c_751_13_alg».proof.Proof.Gen.KernelIdeal.Points
import proofs.«105355_g44925357916747_cont_8to1_c_751_13_alg».proof.Proof.Gen.KernelIdeal.Frame
import proofs.«105355_g44925357916747_cont_8to1_c_751_13_alg».proof.Proof.Gen.ReferenceIdeal
import proofs.«105355_g44925357916747_cont_8to1_c_751_13_alg».proof.Proof.Gen.Pre_finite_inputs
import proofs.«105355_g44925357916747_cont_8to1_c_751_13_alg».proof.Proof.KernelValue
import proofs.«105355_g44925357916747_cont_8to1_c_751_13_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the arguments both programs end with the encoded array of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
